-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S2048 .f32) (main_arg13 : FVec F S2048 .f32) (main_arg14 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S2048x8192 : Shape := ⟨2, ![2048, 8192]⟩
abbrev S4096x8192 : Shape := ⟨2, ![4096, 8192]⟩
abbrev S8192 : Shape := ⟨1, ![8192]⟩
abbrev S4096x4096 : Shape := ⟨2, ![4096, 4096]⟩
abbrev S256x512 : Shape := ⟨2, ![256, 512]⟩
abbrev S512x8192 : Shape := ⟨2, ![512, 8192]⟩
abbrev S256x2048 : Shape := ⟨2, ![256, 2048]⟩
abbrev S256x8192 : Shape := ⟨2, ![256, 8192]⟩
abbrev S1x8192 : Shape := ⟨2, ![1, 8192]⟩

abbrev nBuf : Space → Nat
  | .hbm => 24
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048x8192, .f32⟩
  | .hbm, ⟨16, _⟩ => ⟨S2048x8192, .f32⟩
  | .hbm, ⟨17, _⟩ => ⟨S4096x8192, .f32⟩
  | .hbm, ⟨18, _⟩ => ⟨S8192, .f32⟩
  | .hbm, ⟨19, _⟩ => ⟨S4096x4096, .f32⟩
  | .hbm, ⟨20, _⟩ => ⟨S4096x4096, .bf16⟩
  | .hbm, ⟨21, _⟩ => ⟨S4096x8192, .bf16⟩
  | .hbm, ⟨22, _⟩ => ⟨S4096x2048, .f32⟩
  | .hbm, ⟨23, _⟩ => ⟨S4096x2048, .f32⟩
  | .local _ .vmem, ⟨0, _⟩ => ⟨S256x512, .bf16⟩
  | .local _ .vmem, ⟨1, _⟩ => ⟨S256x512, .bf16⟩
  | .local _ .vmem, ⟨2, _⟩ => ⟨S512x8192, .bf16⟩
  | .local _ .vmem, ⟨3, _⟩ => ⟨S512x8192, .bf16⟩
  | .local _ .vmem, ⟨4, _⟩ => ⟨S256x2048, .f32⟩
  | .local _ .vmem, ⟨5, _⟩ => ⟨S256x2048, .f32⟩
  | .local _ .vmem, ⟨6, _⟩ => ⟨S8192, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x8192, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  concatenates_S2048x2048_S2048x2048_S2048x2048_S2048x2048_S2048x8192_d1 : Shape.Concatenates [S2048x2048, S2048x2048, S2048x2048, S2048x2048] S2048x8192 1
  concatenates_S2048x8192_S2048x8192_S4096x8192_d0 : Shape.Concatenates [S2048x8192, S2048x8192] S4096x8192 0
  concatenates_S2048_S2048_S2048_S2048_S8192_d0 : Shape.Concatenates [S2048, S2048, S2048, S2048] S8192 0
  concatenates_S4096x2048_S4096x2048_S4096x4096_d1 : Shape.Concatenates [S4096x2048, S4096x2048] S4096x4096 1
  bitsLt_bf16_f32 : FTy.bits .bf16 < FTy.bits .f32
  inb_S8192_S8192_0 : ∀ a, (![0] : Fin 1 → Nat) a + S8192.size a ≤ S8192.size a
  h_S8192 : 0 < S8192.numel
  shapeCasts_S8192_S8192 : S8192.ShapeCasts S8192
  shapeCasts_S8192_S1x8192 : S8192.ShapeCasts S1x8192
  broadcasts_S1x8192_S256x8192 : S1x8192.Broadcasts S256x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  slices_S256x8192_o0_0_S256x2048 : S256x8192.Slices ![0, 0] S256x2048
  slices_S256x8192_o0_2048_S256x2048 : S256x8192.Slices ![0, 2048] S256x2048
  slices_S256x8192_o0_4096_S256x2048 : S256x8192.Slices ![0, 4096] S256x2048
  slices_S256x8192_o0_6144_S256x2048 : S256x8192.Slices ![0, 6144] S256x2048
  inb_S256x2048_S256x2048_0_0 : ∀ a, (![0, 0] : Fin 2 → Nat) a + S256x2048.size a ≤ S256x2048.size a
  h_S256x2048 : 0 < S256x2048.numel
  dot_S256x512_S512x8192_S256x8192_1_0_0_1_n_n_wf : DotDims.WF S256x512 S512x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x4096.size a
  hwx0_0 : ∀ i : grid0.Coords, EltTy.bits .bf16 = 32 ∨ (Rect.block (s := S4096x4096) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S4096x8192.size a
  hwx0_1 : ∀ i : grid0.Coords, EltTy.bits .bf16 = 32 ∨ (Rect.block (s := S4096x8192) S512x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .f32 = 32 ∨ (Rect.block (s := S4096x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S8192.size a
  hwx0_3 : ∀ i : grid0.Coords, EltTy.bits .f32 = 32 ∨ (Rect.block (s := S8192) S8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .f32 = 32 ∨ (Rect.block (s := S4096x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)

variable [Facts₀]

def dot_S256x512_S512x8192_S256x8192_1_0_0_1_n_n : DotDims S256x512 S512x8192 S256x8192 where
  lhsContracting := [1]
  rhsContracting := [0]
  lhsNonContracting := [0]
  rhsNonContracting := [1]
  lhsBatch := []
  rhsBatch := []
  wf := dot_S256x512_S512x8192_S256x8192_1_0_0_1_n_n_wf

abbrev win0_0 : Pipeline.Window sig grid0 :=
  Pipeline.Window.ofSpec (Memref.whole main_v5) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048x8192, .f32⟩
  | .hbm, ⟨16, _⟩ => ⟨S2048x8192, .f32⟩
  | .hbm, ⟨17, _⟩ => ⟨S8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S1x8192, .f32⟩
  | .hbm, ⟨22, _⟩ => ⟨S4096x8192, .f32⟩
  | .hbm, ⟨23, _⟩ => ⟨S4096x8192, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Kernel.Entry.lean ====
import proofs.«117353_j21088289423624_1_alg».proof.Proof.Gen.Kernel.Launch
import proofs.«117353_j21088289423624_1_alg».proof.Proof.Gen.Kernel.Skeleton
import proofs.«117353_j21088289423624_1_alg».proof.Proof.Gen.Kernel.Points
import Idealize.ShloMosaic.Lib.Pipeline.FrameBody
import Idealize.ShloMosaic.Lib.Ring
import Idealize.ShloMosaic.Lib.Tactic

/-!
# The region's entry

The LSTM cell's @main first lays its operands out on the host — the four input-side weight matrices side by side,
the four recurrent ones side by side, the two stacked (a 4096 × 8192 matrix), the four biases end to end, `x` and
`h` side by side (a 4096 × 4096 matrix) — and narrows the two matrices to bf16; then one region on a 16 × 8 grid
(row tile × reduction tile) computes the cell. This module states what the region finds: the buffers after the host
lines, each window's block at a grid point, the two conditions the body branches on (first / last reduction step) in
closed form over the 128 points, where the two result windows are idle, and that the host lines write no argument.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the seven host lines. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: unfetched, the
    block index has not moved since the fetch, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: unfetched, the
    block index has not moved since the fetch, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: unfetched, the
    block index has not moved since the fetch, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: unfetched, the
    block index has not moved since the fetch, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From the frame run's post: window 2's array (`c`) is an input the pipeline only reads, every other argument a
    buffer the region bypasses; the host lines wrote none of them. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-! ## The body's two conditions -/

/-- "This is the first reduction step": the body's first `scf.if`, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last reduction step": the body's second `scf.if`. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the result windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last reduction step the body stores nothing into the two results' buffers, and they are not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- On it they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S256x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
/-- One staging buffer of each result window, through which its contents are stated. -/
abbrev VO0_4 : View sig .tc .vmem S256x2048 .f32 := (Memref.whole cc0_stg4_0 : Memref sig .tc .vmem S256x2048 .f32).view
abbrev VO0_5 : View sig .tc .vmem S256x2048 .f32 := (Memref.whole cc0_stg5_0 : Memref sig .tc .vmem S256x2048 .f32).view
/-- The accumulator: a whole scoped buffer of the kernel's own, carried from one reduction step to the next. -/
abbrev scM0_0 : Memref sig .tc .vmem S256x8192 .f32 := Memref.whole cc0_scratch0
abbrev VS0_0 : View sig .tc .vmem S256x8192 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.Kernel.CaseFirst.lean ====
import proofs.«117353_j21088289423624_1_alg».proof.Proof.Kernel.Entry

/-!
# The body at a first reduction step

At a grid point whose reduction coordinate is 0 the body overwrites the accumulator with the bias row broadcast down
the 256 rows, adds the product of this step's two blocks to it, and leaves the two result buffers alone. The run
steps through the body's loads and stores in order; the pieces the accumulator ends with are the two stores it meets.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole memrefs — the four inputs at their contents, the two result buffers at contents handed back untouched, the
    accumulator at anything — the body runs to the continuation with the inputs as they were and the accumulator with its
    pieces written. -/
noncomputable def kernelRun0_A (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : cond0_0 i) (hc1 : ¬cond0_1 i)
    (x0 : Vec F S256x512 .bf16) (x1 : Vec F S512x8192 .bf16) (x2 : Vec F S256x2048 .f32) (x3 : Vec F S8192 .f32) :
    { LS0 : List (View.Piece (Elt F) S256x8192 .f32) //
      ∀ (xi4 xi5 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8) K } := by
  refine ⟨?_, fun xi4 xi5 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.Kernel.CaseMid.lean ====
import proofs.«117353_j21088289423624_1_alg».proof.Proof.Kernel.CaseFirst

/-!
# The body at a middle reduction step

At a grid point whose reduction coordinate is neither 0 nor 7 the body adds the product of this step's two blocks to
the accumulator the step before left, and leaves the two result buffers alone.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- As at a first step, the accumulator now at the contents `xs0` the step before left. -/
noncomputable def kernelRun0_B (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : ¬cond0_1 i)
    (x0 : Vec F S256x512 .bf16) (x1 : Vec F S512x8192 .bf16) (x2 : Vec F S256x2048 .f32) (x3 : Vec F S8192 .f32) (xs0 : Vec F S256x8192 .f32) :
    { LS0 : List (View.Piece (Elt F) S256x8192 .f32) //
      ∀ (xi4 xi5 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8) K } := by
  refine ⟨?_, fun xi4 xi5 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.Kernel.CaseLast.lean ====
import proofs.«117353_j21088289423624_1_alg».proof.Proof.Kernel.CaseMid

/-!
# The body at a last reduction step

At a grid point whose reduction coordinate is 7 the body adds the last product to the accumulator, reads the finished
256 × 8192 gate pre-activations back, and stores the new hidden state and the new cell state into the two result
buffers.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The accumulator at the contents `xs0` the step before left, the two result buffers at anything: the body runs to the
    continuation with the inputs as they were and the accumulator and each result buffer with its pieces written. -/
noncomputable def kernelRun0_C (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) :
    Σ' (L4 : List (View.Piece (Elt F) S256x2048 .f32)) (L5 : List (View.Piece (Elt F) S256x2048 .f32)), { LS0 : List (View.Piece (Elt F) S256x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8) K } := by
  refine ⟨?_, ?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Fr

end
-- ==== Proof.Kernel.Frame.lean ====
import proofs.«117353_j21088289423624_1_alg».proof.Proof.Kernel.CaseLast

/-!
# The frame of the LSTM cell's region

What the accumulator and the two result buffers hold after every grid point, by recursion on the point: at a first
reduction step the accumulator is the bias row plus the first product, at every later step what the step before left
plus this step's product, and at a last step the two results are the gate arithmetic of the finished accumulator and
the cell-state block. From that: the pipeline's proof data, the body obligation at every point (by the three runs),
the frame run, and that every argument array ends as launched.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first step the accumulator's pieces (the bias store, then the update) cover it. -/
theorem scover0_A_0 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : cond0_0 i) (hc1 : ¬cond0_1 i)
    (x0 : Vec F S256x512 .bf16) (x1 : Vec F S512x8192 .bf16) (x2 : Vec F S256x2048 .f32) (x3 : Vec F S8192 .f32) (y : S256x8192.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S256x8192.size (by sl_kernel_rfl) y

/-- What a first step leaves in the accumulator: its pieces read back. -/
def sout0_A_0 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : cond0_0 i) (hc1 : ¬cond0_1 i)
    (x0 : Vec F S256x512 .bf16) (x1 : Vec F S512x8192 .bf16) (x2 : Vec F S256x2048 .f32) (x3 : Vec F S8192 .f32) : Vec F S256x8192 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)

theorem scover0_B_0 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : ¬cond0_1 i)
    (x0 : Vec F S256x512 .bf16) (x1 : Vec F S512x8192 .bf16) (x2 : Vec F S256x2048 .f32) (x3 : Vec F S8192 .f32) (xs0 : Vec F S256x8192 .f32) (y : S256x8192.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S256x8192.size (by sl_kernel_rfl) y

/-- What a middle step leaves in the accumulator, over what the step before left (`xs0`). -/
def sout0_B_0 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : ¬cond0_1 i)
    (x0 : Vec F S256x512 .bf16) (x1 : Vec F S512x8192 .bf16) (x2 : Vec F S256x2048 .f32) (x3 : Vec F S8192 .f32) (xs0 : Vec F S256x8192 .f32) : Vec F S256x8192 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0).1)

theorem cover0_C_4 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) (y : S256x2048.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S256x2048.size (by sl_kernel_rfl) y

/-- What a last step leaves in the first result's buffer (the new hidden state's block). -/
def out0_C_4 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) : Vec F S256x2048 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0).1)

theorem cover0_C_5 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) (y : S256x2048.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S256x2048.size (by sl_kernel_rfl) y

/-- What a last step leaves in the second result's buffer (the new cell state's block). -/
def out0_C_5 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) : Vec F S256x2048 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 xs0).2.1)

theorem scover0_C_0 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) (y : S256x8192.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S256x8192.size (by sl_kernel_rfl) y

/-- What a last step leaves in the accumulator. -/
def sout0_C_0 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) : Vec F S256x8192 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0).2.2.1)

/-! ## The same at a grid point, on the point's memrefs and blocks -/

/-- A placeholder for a result buffer at a point where the body stores nothing into it (nothing consults it: there the
    buffer is neither written back nor read). -/
def idle4 : Vec F S256x2048 .f32 := VO0_4.read (Elt F) (VO0_4.writes (Elt F) VO0_4.junk ([] : List (View.Piece (Elt F) S256x2048 .f32)))
def idle5 : Vec F S256x2048 .f32 := VO0_5.read (Elt F) (VO0_5.writes (Elt F) VO0_5.junk ([] : List (View.Piece (Elt F) S256x2048 .f32)))

def accA (c : Dev nD) (t : Fin cfg0.N) (h0 : t.val % 8 = 0) (h7 : ¬t.val % 8 = 7) : Vec F S256x8192 .f32 :=
  sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h7 ((hcond0_1 t).mp h)) (iblk m c 0 t) (iblk m c 1 t) (iblk m c 2 t) (iblk m c 3 t)
def accB (c : Dev nD) (t : Fin cfg0.N) (h0 : ¬t.val % 8 = 0) (h7 : ¬t.val % 8 = 7) (xs0 : Vec F S256x8192 .f32) : Vec F S256x8192 .f32 :=
  sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h7 ((hcond0_1 t).mp h)) (iblk m c 0 t) (iblk m c 1 t) (iblk m c 2 t) (iblk m c 3 t) xs0
def accC (c : Dev nD) (t : Fin cfg0.N) (h0 : ¬t.val % 8 = 0) (h7 : t.val % 8 = 7) (xs0 : Vec F S256x8192 .f32) : Vec F S256x8192 .f32 :=
  sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) xs0
def hidC (c : Dev nD) (t : Fin cfg0.N) (h0 : ¬t.val % 8 = 0) (h7 : t.val % 8 = 7) (xs0 : Vec F S256x8192 .f32) : Vec F S256x2048 .f32 :=
  out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) xs0
def cellC (c : Dev nD) (t : Fin cfg0.N) (h0 : ¬t.val % 8 = 0) (h7 : t.val % 8 = 7) (xs0 : Vec F S256x8192 .f32) : Vec F S256x2048 .f32 :=
  out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) xs0

/-! ## What the buffers hold after each point -/

/-- After the body at position `n`: the first result's buffer, the second's, the accumulator. The case is the one
    `n mod 8` selects; a step that is not a first one starts from what the point before left in the accumulator. -/
def outsAt0 (c : Dev nD) : (n : ℕ) → n < cfg0.N → Vec F S256x2048 .f32 × Vec F S256x2048 .f32 × Vec F S256x8192 .f32
  | 0, hn => (idle4, idle5, accA m c ⟨0, hn⟩ (Nat.zero_mod _) (show ¬(0 : ℕ) % 8 = 7 by decide))
  | n + 1, hn =>
    if h0 : (n + 1) % 8 = 0 then
      if h7 : (n + 1) % 8 = 7 then
        False.elim (by omega)
      else
        (idle4, idle5, accA m c ⟨n + 1, hn⟩ h0 h7)
    else
      if h7 : (n + 1) % 8 = 7 then
        (hidC m c ⟨n + 1, hn⟩ h0 h7 (outsAt0 c n (Nat.lt_of_succ_lt hn)).2.2, cellC m c ⟨n + 1, hn⟩ h0 h7 (outsAt0 c n (Nat.lt_of_succ_lt hn)).2.2, accC m c ⟨n + 1, hn⟩ h0 h7 (outsAt0 c n (Nat.lt_of_succ_lt hn)).2.2)
      else
        (idle4, idle5, accB m c ⟨n + 1, hn⟩ h0 h7 (outsAt0 c n (Nat.lt_of_succ_lt hn)).2.2)

theorem outsAt0_A (c : Dev nD) (t : Fin cfg0.N) (h0 : t.val % 8 = 0) (h7 : ¬t.val % 8 = 7) :
    outsAt0 m c t.val t.isLt = (idle4, idle5, accA m c t h0 h7) := by
  obtain ⟨n, hn⟩ := t
  cases n with
  | zero => exact rfl
  | succ n => exact (dif_pos h0).trans ((dif_neg h7).trans rfl)

theorem outsAt0_B (c : Dev nD) (t : Fin cfg0.N) (h0 : ¬t.val % 8 = 0) (h7 : ¬t.val % 8 = 7) :
    outsAt0 m c t.val t.isLt = (idle4, idle5, accB m c t h0 h7 (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h7).trans rfl)

theorem outsAt0_C (c : Dev nD) (t : Fin cfg0.N) (h0 : ¬t.val % 8 = 0) (h7 : t.val % 8 = 7) :
    outsAt0 m c t.val t.isLt = (hidC m c t h0 h7 (outsAt0 m c (t.val - 1) (Nat.lt_of_le_of_lt (Nat.sub_le _ _) t.isLt)).2.2, cellC m c t h0 h7 (outsAt0 m c (t.val - 1) (Nat.lt_of_le_of_lt (Nat.sub_le _ _) t.isLt)).2.2, accC m c t h0 h7 (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h7).trans rfl)

/-- The region's invariant before position `n`: before the first point the accumulator holds anything; afterwards what
    the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body each input's buffer at its block, the results' at `outsAt0`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- A first reduction step: the accumulator is handed over at anything (at the very first point) or at what the row
    tile before left (which the bias store overwrites), and taken back at this step's contents. -/
theorem sound_body_A (c : Dev nD) (t : Fin cfg0.N) (h0 : t.val % 8 = 0) (h7 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hc1 : ¬cond0_1 (grid0.coords t) := fun h => h7 ((hcond0_1 t).mp h)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4 t hc1) (noFlush0_4 t hc1)]
  rw [Dat.leavesExact_idle (dats m 0 c) 5 t (idleAt0_5 t hc1) (noFlush0_5 t hc1)]
  rw [outsAt0_A m c t h0 h7]
  unfold accA sout0_A_0; (try dsimp only)
  by_cases hz : t.val = 0
  · rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) hc1 (iblk m c 0 t) (iblk m c 1 t) (iblk m c 2 t) (iblk m c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) hc1 (iblk m c 0 t) (iblk m c 1 t) (iblk m c 2 t) (iblk m c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    iintro ⟨H0, H1, H2, H3, H4, H5, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 4800000 in
/-- A middle reduction step: the accumulator handed over at what the step before left. -/
theorem sound_body_B (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hc0 : ¬cond0_0 (grid0.coords t) := fun h => h0 ((hcond0_0 t).mp h)
  have hc1 : ¬cond0_1 (grid0.coords t) := fun h => h7 ((hcond0_1 t).mp h)
  have hz : t.val ≠ 0 := fun e => h0 (by rw [e])
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4 t hc1) (noFlush0_4 t hc1)]
  rw [Dat.leavesExact_idle (dats m 0 c) 5 t (idleAt0_5 t hc1) (noFlush0_5 t hc1)]
  rw [outsAt0_B m c t h0 h7]
  unfold accB sout0_B_0; (try dsimp only)
  rw [PhiS_castSucc m c t, PhiS_pos m c _ _ hz]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_B c (grid0.coords t) _ _ _ _ _ _ _ _ _ _ _ _ _ _ hc0 hc1 (iblk m c 0 t) (iblk m c 1 t) (iblk m c 2 t) (iblk m c 3 t) _).2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  iintro ⟨H0, H1, H2, H3, H4, H5, ⟨%es0, HS0⟩⟩
  isplitl [HS0 Hg]
  · isplitl [HS0]
    · unfold owns; iexists _; isplitr
      swap; · iexact HS0
      ipureintro; exact View.read_writes_of_cover _ _ _ _ _ (scover0_B_0 c _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- A last reduction step: the two result buffers handed over at anything and taken back at the gate arithmetic of the
    finished accumulator. -/
theorem sound_body_C (c : Dev nD) (t : Fin cfg0.N) (h0 : ¬t.val % 8 = 0) (h7 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hc0 : ¬cond0_0 (grid0.coords t) := fun h => h0 ((hcond0_0 t).mp h)
  have hc1 : cond0_1 (grid0.coords t) := (hcond0_1 t).mpr h7
  have hz : t.val ≠ 0 := fun e => h0 (by rw [e])
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t hc1], after0_4]
  rw [show (dats m 0 c).leavesExact 5 t = owns (c : Thread nD τ) (ms0_5 t) fullShare ((dats m 0 c).after 5 t) from by
    unfold Dat.leavesExact; rw [liveAt0_5 t hc1], after0_5]
  rw [outsAt0_C m c t h0 h7]
  unfold hidC cellC accC out0_C_4 out0_C_5 sout0_C_0; (try dsimp only)
  rw [PhiS_castSucc m c t, PhiS_pos m c _ _ hz]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_C c (grid0.coords t) _ _ _ _ _ _ _ _ _ _ _ _ _ _ hc0 hc1 (iblk m c 0 t) (iblk m c 1 t) (iblk m c 2 t) (iblk m c 3 t) _).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  iintro ⟨H0, H1, H2, H3, ⟨%e4, H4⟩, ⟨%e5, H5⟩, ⟨%es0, HS0⟩⟩
  isplitl [HS0 Hg]
  · isplitl [HS0]
    · unfold owns; iexists _; isplitr
      swap; · iexact HS0
      ipureintro; exact View.read_writes_of_cover _ _ _ _ _ (scover0_C_0 c _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_C_4 c _ _ _ _ _ _ _ _ _ _ _ _ _ _ _ _ _ _ _ _ _ _)
  unfold owns; iexists _; isplitr
  swap; · iexact H5
  ipureintro; exact View.read_writes_of_cover _ _ _ _ _ (cover0_C_5 c _ _ _ _ _ _ _ _ _ _ _ _ _ _ _ _ _ _ _ _ _ _)

/-- The body at any point, by the point's reduction coordinate. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_body_A m c t h0 (by omega)
  · by_cases h7 : t.val % 8 = 7
    · exact sound_body_C m c t h0 h7
    · exact sound_body_B m c t h0 h7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's back: the accumulator's contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and in every final state each window's array is what the library
    computes from the proof data and every other unscoped buffer is as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end, nothing faults, every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m (dats m) (A_eq m) r h c) (run_main m ρ)

end Cert.Kernel.Fr

end
-- ==== Proof.KernelIdeal.Entry.lean ====
import proofs.«117353_j21088289423624_1_alg».proof.Proof.Gen.KernelIdeal.Launch
import proofs.«117353_j21088289423624_1_alg».proof.Proof.Gen.KernelIdeal.Skeleton
import proofs.«117353_j21088289423624_1_alg».proof.Proof.Gen.KernelIdeal.Points
import Idealize.ShloMosaic.Lib.Pipeline.FrameBody
import Idealize.ShloMosaic.Lib.Ring
import Idealize.ShloMosaic.Lib.Tactic

/-!
# The region's entry

The LSTM cell's @main first lays its operands out on the host — the four input-side weight matrices side by side,
the four recurrent ones side by side, the two stacked (a 4096 × 8192 matrix), the four biases end to end, `x` and
`h` side by side (a 4096 × 4096 matrix) — and narrows the two matrices to bf16; then one region on a 16 × 8 grid
(row tile × reduction tile) computes the cell. This module states what the region finds: the buffers after the host
lines, each window's block at a grid point, the two conditions the body branches on (first / last reduction step) in
closed form over the 128 points, where the two result windows are idle, and that the host lines write no argument.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the seven host lines. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: unfetched, the
    block index has not moved since the fetch, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: unfetched, the
    block index has not moved since the fetch, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: unfetched, the
    block index has not moved since the fetch, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: unfetched, the
    block index has not moved since the fetch, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From the frame run's post: window 2's array (`c`) is an input the pipeline only reads, every other argument a
    buffer the region bypasses; the host lines wrote none of them. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-! ## The body's two conditions -/

/-- "This is the first reduction step": the body's first `scf.if`, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last reduction step": the body's second `scf.if`. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the result windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last reduction step the body stores nothing into the two results' buffers, and they are not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- On it they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S256x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
abbrev hs0_5 (t : Fin cfg0.N) : (ms0_5 t).IsWhole := hstage0_5 ((cfg0.slots t 5).cast nbuf0_5)
/-- One staging buffer of each result window, through which its contents are stated. -/
abbrev VO0_4 : View sig .tc .vmem S256x2048 .f32 := (Memref.whole cc0_stg4_0 : Memref sig .tc .vmem S256x2048 .f32).view
abbrev VO0_5 : View sig .tc .vmem S256x2048 .f32 := (Memref.whole cc0_stg5_0 : Memref sig .tc .vmem S256x2048 .f32).view
/-- The accumulator: a whole scoped buffer of the kernel's own, carried from one reduction step to the next. -/
abbrev scM0_0 : Memref sig .tc .vmem S256x8192 .f32 := Memref.whole cc0_scratch0
abbrev VS0_0 : View sig .tc .vmem S256x8192 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KernelIdeal.CaseFirst.lean ====
import proofs.«117353_j21088289423624_1_alg».proof.Proof.KernelIdeal.Entry

/-!
# The body at a first reduction step

At a grid point whose reduction coordinate is 0 the body overwrites the accumulator with the bias row broadcast down
the 256 rows, adds the product of this step's two blocks to it, and leaves the two result buffers alone. The run
steps through the body's loads and stores in order; the pieces the accumulator ends with are the two stores it meets.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole memrefs — the four inputs at their contents, the two result buffers at contents handed back untouched, the
    accumulator at anything — the body runs to the continuation with the inputs as they were and the accumulator with its
    pieces written. -/
noncomputable def kernelRun0_A (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : cond0_0 i) (hc1 : ¬cond0_1 i)
    (x0 : Vec F S256x512 .bf16) (x1 : Vec F S512x8192 .bf16) (x2 : Vec F S256x2048 .f32) (x3 : Vec F S8192 .f32) :
    { LS0 : List (View.Piece (Elt F) S256x8192 .f32) //
      ∀ (xi4 xi5 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8) K } := by
  refine ⟨?_, fun xi4 xi5 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KernelIdeal.CaseMid.lean ====
import proofs.«117353_j21088289423624_1_alg».proof.Proof.KernelIdeal.CaseFirst

/-!
# The body at a middle reduction step

At a grid point whose reduction coordinate is neither 0 nor 7 the body adds the product of this step's two blocks to
the accumulator the step before left, and leaves the two result buffers alone.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- As at a first step, the accumulator now at the contents `xs0` the step before left. -/
noncomputable def kernelRun0_B (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : ¬cond0_1 i)
    (x0 : Vec F S256x512 .bf16) (x1 : Vec F S512x8192 .bf16) (x2 : Vec F S256x2048 .f32) (x3 : Vec F S8192 .f32) (xs0 : Vec F S256x8192 .f32) :
    { LS0 : List (View.Piece (Elt F) S256x8192 .f32) //
      ∀ (xi4 xi5 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8) K } := by
  refine ⟨?_, fun xi4 xi5 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KernelIdeal.CaseLast.lean ====
import proofs.«117353_j21088289423624_1_alg».proof.Proof.KernelIdeal.CaseMid

/-!
# The body at a last reduction step

At a grid point whose reduction coordinate is 7 the body adds the last product to the accumulator, reads the finished
256 × 8192 gate pre-activations back, and stores the new hidden state and the new cell state into the two result
buffers.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The accumulator at the contents `xs0` the step before left, the two result buffers at anything: the body runs to the
    continuation with the inputs as they were and the accumulator and each result buffer with its pieces written. -/
noncomputable def kernelRun0_C (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) :
    Σ' (L4 : List (View.Piece (Elt F) S256x2048 .f32)) (L5 : List (View.Piece (Elt F) S256x2048 .f32)), { LS0 : List (View.Piece (Elt F) S256x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__lstm_kernel i arg2 harg2 arg3 harg3 arg4 harg4 arg5 harg5 arg6 harg6 arg7 harg7 arg8 harg8) K } := by
  refine ⟨?_, ?_, ?_, fun E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Fr

end
-- ==== Proof.KernelIdeal.Frame.lean ====
import proofs.«117353_j21088289423624_1_alg».proof.Proof.KernelIdeal.CaseLast

/-!
# The frame of the LSTM cell's region

What the accumulator and the two result buffers hold after every grid point, by recursion on the point: at a first
reduction step the accumulator is the bias row plus the first product, at every later step what the step before left
plus this step's product, and at a last step the two results are the gate arithmetic of the finished accumulator and
the cell-state block. From that: the pipeline's proof data, the body obligation at every point (by the three runs),
the frame run, and that every argument array ends as launched.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first step the accumulator's pieces (the bias store, then the update) cover it. -/
theorem scover0_A_0 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : cond0_0 i) (hc1 : ¬cond0_1 i)
    (x0 : Vec F S256x512 .bf16) (x1 : Vec F S512x8192 .bf16) (x2 : Vec F S256x2048 .f32) (x3 : Vec F S8192 .f32) (y : S256x8192.Idx) :
    ∃ pc ∈ (kernelRun0_A c i arg2 harg2 arg3 harg3 arg4 harg4 arg5 harg5 arg6 harg6 arg7 harg7 arg8 harg8 hc0 hc1 x0 x1 x2 x3).1, y ∈ pc.1.set :=
  View.cover_of_tiledL (kernelRun0_A c i arg2 harg2 arg3 harg3 arg4 harg4 arg5 harg5 arg6 harg6 arg7 harg7 arg8 harg8 hc0 hc1 x0 x1 x2 x3).1 S256x8192.size (by sl_kernel_rfl) y

/-- What a first step leaves in the accumulator: its pieces read back. -/
def sout0_A_0 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : cond0_0 i) (hc1 : ¬cond0_1 i)
    (x0 : Vec F S256x512 .bf16) (x1 : Vec F S512x8192 .bf16) (x2 : Vec F S256x2048 .f32) (x3 : Vec F S8192 .f32) : Vec F S256x8192 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).1)

theorem scover0_B_0 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : ¬cond0_1 i)
    (x0 : Vec F S256x512 .bf16) (x1 : Vec F S512x8192 .bf16) (x2 : Vec F S256x2048 .f32) (x3 : Vec F S8192 .f32) (xs0 : Vec F S256x8192 .f32) (y : S256x8192.Idx) :
    ∃ pc ∈ (kernelRun0_B c i arg2 harg2 arg3 harg3 arg4 harg4 arg5 harg5 arg6 harg6 arg7 harg7 arg8 harg8 hc0 hc1 x0 x1 x2 x3 xs0).1, y ∈ pc.1.set :=
  View.cover_of_tiledL (kernelRun0_B c i arg2 harg2 arg3 harg3 arg4 harg4 arg5 harg5 arg6 harg6 arg7 harg7 arg8 harg8 hc0 hc1 x0 x1 x2 x3 xs0).1 S256x8192.size (by sl_kernel_rfl) y

/-- What a middle step leaves in the accumulator, over what the step before left (`xs0`). -/
def sout0_B_0 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : ¬cond0_1 i)
    (x0 : Vec F S256x512 .bf16) (x1 : Vec F S512x8192 .bf16) (x2 : Vec F S256x2048 .f32) (x3 : Vec F S8192 .f32) (xs0 : Vec F S256x8192 .f32) : Vec F S256x8192 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0).1)

theorem cover0_C_4 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) (y : S256x2048.Idx) :
    ∃ pc ∈ (kernelRun0_C c i arg2 harg2 arg3 harg3 arg4 harg4 arg5 harg5 arg6 harg6 arg7 harg7 arg8 harg8 hc0 hc1 x0 x1 x2 x3 xs0).1, y ∈ pc.1.set :=
  View.cover_of_tiledL (kernelRun0_C c i arg2 harg2 arg3 harg3 arg4 harg4 arg5 harg5 arg6 harg6 arg7 harg7 arg8 harg8 hc0 hc1 x0 x1 x2 x3 xs0).1 S256x2048.size (by sl_kernel_rfl) y

/-- What a last step leaves in the first result's buffer (the new hidden state's block). -/
def out0_C_4 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) : Vec F S256x2048 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0).1)

theorem cover0_C_5 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) (y : S256x2048.Idx) :
    ∃ pc ∈ (kernelRun0_C c i arg2 harg2 arg3 harg3 arg4 harg4 arg5 harg5 arg6 harg6 arg7 harg7 arg8 harg8 hc0 hc1 x0 x1 x2 x3 xs0).2.1, y ∈ pc.1.set :=
  View.cover_of_tiledL (kernelRun0_C c i arg2 harg2 arg3 harg3 arg4 harg4 arg5 harg5 arg6 harg6 arg7 harg7 arg8 harg8 hc0 hc1 x0 x1 x2 x3 xs0).2.1 S256x2048.size (by sl_kernel_rfl) y

/-- What a last step leaves in the second result's buffer (the new cell state's block). -/
def out0_C_5 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) : Vec F S256x2048 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 xs0).2.1)

theorem scover0_C_0 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) (y : S256x8192.Idx) :
    ∃ pc ∈ (kernelRun0_C c i arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg2 harg2 arg3 harg3 arg4 harg4 arg5 harg5 arg6 harg6 arg7 harg7 arg8 harg8 hc0 hc1 x0 x1 x2 x3 xs0).2.2.1 S256x8192.size (by sl_kernel_rfl) y

/-- What a last step leaves in the accumulator. -/
def sout0_C_0 (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) : Vec F S256x8192 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0).2.2.1)

/-! ## The same at a grid point, on the point's memrefs and blocks -/

/-- A placeholder for a result buffer at a point where the body stores nothing into it (nothing consults it: there the
    buffer is neither written back nor read). -/
def idle4 : Vec F S256x2048 .f32 := VO0_4.read (Elt F) (VO0_4.writes (Elt F) VO0_4.junk ([] : List (View.Piece (Elt F) S256x2048 .f32)))
def idle5 : Vec F S256x2048 .f32 := VO0_5.read (Elt F) (VO0_5.writes (Elt F) VO0_5.junk ([] : List (View.Piece (Elt F) S256x2048 .f32)))

def accA (c : Dev nD) (t : Fin cfg0.N) (h0 : t.val % 8 = 0) (h7 : ¬t.val % 8 = 7) : Vec F S256x8192 .f32 :=
  sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h7 ((hcond0_1 t).mp h)) (iblk m c 0 t) (iblk m c 1 t) (iblk m c 2 t) (iblk m c 3 t)
def accB (c : Dev nD) (t : Fin cfg0.N) (h0 : ¬t.val % 8 = 0) (h7 : ¬t.val % 8 = 7) (xs0 : Vec F S256x8192 .f32) : Vec F S256x8192 .f32 :=
  sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h7 ((hcond0_1 t).mp h)) (iblk m c 0 t) (iblk m c 1 t) (iblk m c 2 t) (iblk m c 3 t) xs0
def accC (c : Dev nD) (t : Fin cfg0.N) (h0 : ¬t.val % 8 = 0) (h7 : t.val % 8 = 7) (xs0 : Vec F S256x8192 .f32) : Vec F S256x8192 .f32 :=
  sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) xs0
def hidC (c : Dev nD) (t : Fin cfg0.N) (h0 : ¬t.val % 8 = 0) (h7 : t.val % 8 = 7) (xs0 : Vec F S256x8192 .f32) : Vec F S256x2048 .f32 :=
  out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) xs0
def cellC (c : Dev nD) (t : Fin cfg0.N) (h0 : ¬t.val % 8 = 0) (h7 : t.val % 8 = 7) (xs0 : Vec F S256x8192 .f32) : Vec F S256x2048 .f32 :=
  out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) xs0

/-! ## What the buffers hold after each point -/

/-- After the body at position `n`: the first result's buffer, the second's, the accumulator. The case is the one
    `n mod 8` selects; a step that is not a first one starts from what the point before left in the accumulator. -/
def outsAt0 (c : Dev nD) : (n : ℕ) → n < cfg0.N → Vec F S256x2048 .f32 × Vec F S256x2048 .f32 × Vec F S256x8192 .f32
  | 0, hn => (idle4, idle5, accA m c ⟨0, hn⟩ (Nat.zero_mod _) (show ¬(0 : ℕ) % 8 = 7 by decide))
  | n + 1, hn =>
    if h0 : (n + 1) % 8 = 0 then
      if h7 : (n + 1) % 8 = 7 then
        False.elim (by omega)
      else
        (idle4, idle5, accA m c ⟨n + 1, hn⟩ h0 h7)
    else
      if h7 : (n + 1) % 8 = 7 then
        (hidC m c ⟨n + 1, hn⟩ h0 h7 (outsAt0 c n (Nat.lt_of_succ_lt hn)).2.2, cellC m c ⟨n + 1, hn⟩ h0 h7 (outsAt0 c n (Nat.lt_of_succ_lt hn)).2.2, accC m c ⟨n + 1, hn⟩ h0 h7 (outsAt0 c n (Nat.lt_of_succ_lt hn)).2.2)
      else
        (idle4, idle5, accB m c ⟨n + 1, hn⟩ h0 h7 (outsAt0 c n (Nat.lt_of_succ_lt hn)).2.2)

theorem outsAt0_A (c : Dev nD) (t : Fin cfg0.N) (h0 : t.val % 8 = 0) (h7 : ¬t.val % 8 = 7) :
    outsAt0 m c t.val t.isLt = (idle4, idle5, accA m c t h0 h7) := by
  obtain ⟨n, hn⟩ := t
  cases n with
  | zero => exact rfl
  | succ n => exact (dif_pos h0).trans ((dif_neg h7).trans rfl)

theorem outsAt0_B (c : Dev nD) (t : Fin cfg0.N) (h0 : ¬t.val % 8 = 0) (h7 : ¬t.val % 8 = 7) :
    outsAt0 m c t.val t.isLt = (idle4, idle5, accB m c t h0 h7 (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h7).trans rfl)

theorem outsAt0_C (c : Dev nD) (t : Fin cfg0.N) (h0 : ¬t.val % 8 = 0) (h7 : t.val % 8 = 7) :
    outsAt0 m c t.val t.isLt = (hidC m c t h0 h7 (outsAt0 m c (t.val - 1) (Nat.lt_of_le_of_lt (Nat.sub_le _ _) t.isLt)).2.2, cellC m c t h0 h7 (outsAt0 m c (t.val - 1) (Nat.lt_of_le_of_lt (Nat.sub_le _ _) t.isLt)).2.2, accC m c t h0 h7 (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h7).trans rfl)

/-- The region's invariant before position `n`: before the first point the accumulator holds anything; afterwards what
    the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body each input's buffer at its block, the results' at `outsAt0`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- A first reduction step: the accumulator is handed over at anything (at the very first point) or at what the row
    tile before left (which the bias store overwrites), and taken back at this step's contents. -/
theorem sound_body_A (c : Dev nD) (t : Fin cfg0.N) (h0 : t.val % 8 = 0) (h7 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hc1 : ¬cond0_1 (grid0.coords t) := fun h => h7 ((hcond0_1 t).mp h)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4 t hc1) (noFlush0_4 t hc1)]
  rw [Dat.leavesExact_idle (dats m 0 c) 5 t (idleAt0_5 t hc1) (noFlush0_5 t hc1)]
  rw [outsAt0_A m c t h0 h7]
  unfold accA sout0_A_0; (try dsimp only)
  by_cases hz : t.val = 0
  · rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) hc1 (iblk m c 0 t) (iblk m c 1 t) (iblk m c 2 t) (iblk m c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) hc1 (iblk m c 0 t) (iblk m c 1 t) (iblk m c 2 t) (iblk m c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    iintro ⟨H0, H1, H2, H3, H4, H5, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 4800000 in
/-- A middle reduction step: the accumulator handed over at what the step before left. -/
theorem sound_body_B (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hc0 : ¬cond0_0 (grid0.coords t) := fun h => h0 ((hcond0_0 t).mp h)
  have hc1 : ¬cond0_1 (grid0.coords t) := fun h => h7 ((hcond0_1 t).mp h)
  have hz : t.val ≠ 0 := fun e => h0 (by rw [e])
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4 t hc1) (noFlush0_4 t hc1)]
  rw [Dat.leavesExact_idle (dats m 0 c) 5 t (idleAt0_5 t hc1) (noFlush0_5 t hc1)]
  rw [outsAt0_B m c t h0 h7]
  unfold accB sout0_B_0; (try dsimp only)
  rw [PhiS_castSucc m c t, PhiS_pos m c _ _ hz]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_B c (grid0.coords t) _ _ _ _ _ _ _ _ _ _ _ _ _ _ hc0 hc1 (iblk m c 0 t) (iblk m c 1 t) (iblk m c 2 t) (iblk m c 3 t) _).2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  iintro ⟨H0, H1, H2, H3, H4, H5, ⟨%es0, HS0⟩⟩
  isplitl [HS0 Hg]
  · isplitl [HS0]
    · unfold owns; iexists _; isplitr
      swap; · iexact HS0
      ipureintro; exact View.read_writes_of_cover _ _ _ _ _ (scover0_B_0 c _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- A last reduction step: the two result buffers handed over at anything and taken back at the gate arithmetic of the
    finished accumulator. -/
theorem sound_body_C (c : Dev nD) (t : Fin cfg0.N) (h0 : ¬t.val % 8 = 0) (h7 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hc0 : ¬cond0_0 (grid0.coords t) := fun h => h0 ((hcond0_0 t).mp h)
  have hc1 : cond0_1 (grid0.coords t) := (hcond0_1 t).mpr h7
  have hz : t.val ≠ 0 := fun e => h0 (by rw [e])
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t hc1], after0_4]
  rw [show (dats m 0 c).leavesExact 5 t = owns (c : Thread nD τ) (ms0_5 t) fullShare ((dats m 0 c).after 5 t) from by
    unfold Dat.leavesExact; rw [liveAt0_5 t hc1], after0_5]
  rw [outsAt0_C m c t h0 h7]
  unfold hidC cellC accC out0_C_4 out0_C_5 sout0_C_0; (try dsimp only)
  rw [PhiS_castSucc m c t, PhiS_pos m c _ _ hz]
  iintro ⟨⟨HS0, Hg⟩, Ho, ⟨%d0, H0⟩, ⟨%d1, H1⟩, ⟨%d2, H2⟩, ⟨%d3, H3⟩, ⟨%d4, H4⟩, ⟨%d5, H5⟩⟩
  iapply ((kernelRun0_C c (grid0.coords t) _ _ _ _ _ _ _ _ _ _ _ _ _ _ hc0 hc1 (iblk m c 0 t) (iblk m c 1 t) (iblk m c 2 t) (iblk m c 3 t) _).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  iintro ⟨H0, H1, H2, H3, ⟨%e4, H4⟩, ⟨%e5, H5⟩, ⟨%es0, HS0⟩⟩
  isplitl [HS0 Hg]
  · isplitl [HS0]
    · unfold owns; iexists _; isplitr
      swap; · iexact HS0
      ipureintro; exact View.read_writes_of_cover _ _ _ _ _ (scover0_C_0 c _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_C_4 c _ _ _ _ _ _ _ _ _ _ _ _ _ _ _ _ _ _ _ _ _ _)
  unfold owns; iexists _; isplitr
  swap; · iexact H5
  ipureintro; exact View.read_writes_of_cover _ _ _ _ _ (cover0_C_5 c _ _ _ _ _ _ _ _ _ _ _ _ _ _ _ _ _ _ _ _ _ _)

/-- The body at any point, by the point's reduction coordinate. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_body_A m c t h0 (by omega)
  · by_cases h7 : t.val % 8 = 7
    · exact sound_body_C m c t h0 h7
    · exact sound_body_B m c t h0 h7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's back: the accumulator's contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and in every final state each window's array is what the library
    computes from the proof data and every other unscoped buffer is as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end, nothing faults, every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m (dats m) (A_eq m) r h c) (run_main m ρ)

end Cert.KernelIdeal.Fr

end
-- ==== Proof.KernelIdeal.Pieces.lean ====
import proofs.«117353_j21088289423624_1_alg».proof.Proof.KernelIdeal.Frame
import Idealize.ShloMosaic.Lib.Pipeline.Value

/-!
# What the three runs leave, as the body's own arithmetic

Each buffer a run stores into ends at the payload of its last whole-buffer store; a load of a buffer stored once
before it reads that store's payload. So a first reduction step leaves in the accumulator the update of the bias
broadcast, a later step the update of what the step before left, and a last step leaves in the two result buffers
the gate arithmetic of the finished accumulator and the cell-state block.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl
theorem hz1 : (![0] : Fin 1 → ℕ) = fun _ => 0 := by funext a; fin_cases a; rfl

/-- A first step: the bias row broadcast down the rows, plus this step's product. -/
theorem sout0_A_0_eq (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : cond0_0 i) (hc1 : ¬cond0_1 i)
    (x0 : Vec F S256x512 .bf16) (x1 : Vec F S512x8192 .bf16) (x2 : Vec F S256x2048 .f32) (x3 : Vec F S8192 .f32) :
    sout0_A_0 c i arg2 harg2 arg3 harg3 arg4 harg4 arg5 harg5 arg6 harg6 arg7 harg7 arg8 harg8 hc0 hc1 x0 x1 x2 x3 = k0_pay2 (k0_pay1 x3) x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S256x8192) hz2]
  simp only [View.readCov_unit_zero (S := S256x8192) _ hz2, View.readAt_eq_ld, harg2.read_unread, harg3.read_unread, harg4.read_unread, harg5.read_unread, harg8.read_unread,
    View.ld_unit_zero (S := S256x512) hz2, View.ld_unit_zero (S := S512x8192) hz2, View.ld_unit_zero (S := S256x2048) hz2, View.ld_unit_zero (S := S256x8192) hz2, View.ld_unit_zero (S := S8192) hz1]

/-- A middle step: what the step before left, plus this step's product. -/
theorem sout0_B_0_eq (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : ¬cond0_1 i)
    (x0 : Vec F S256x512 .bf16) (x1 : Vec F S512x8192 .bf16) (x2 : Vec F S256x2048 .f32) (x3 : Vec F S8192 .f32) (xs0 : Vec F S256x8192 .f32) :
    sout0_B_0 c i arg2 harg2 arg3 harg3 arg4 harg4 arg5 harg5 arg6 harg6 arg7 harg7 arg8 harg8 hc0 hc1 x0 x1 x2 x3 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  unfold kernelRun0_B
  dsimp only
  sl_unfold_words
  rw [View.canon_unit_zero (S := S256x8192) hz2]
  simp only [View.readCov_unit_zero (S := S256x8192) _ hz2, View.readAt_eq_ld, harg2.read_unread, harg3.read_unread, harg4.read_unread, harg5.read_unread, harg8.read_unread,
    View.ld_unit_zero (S := S256x512) hz2, View.ld_unit_zero (S := S512x8192) hz2, View.ld_unit_zero (S := S256x2048) hz2, View.ld_unit_zero (S := S256x8192) hz2, View.ld_unit_zero (S := S8192) hz1]

/-- A last step leaves the accumulator likewise, -/
theorem sout0_C_0_eq (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) :
    sout0_C_0 c i arg2 harg2 arg3 harg3 arg4 harg4 arg5 harg5 arg6 harg6 arg7 harg7 arg8 harg8 hc0 hc1 x0 x1 x2 x3 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S256x8192) hz2]
  simp only [View.readCov_unit_zero (S := S256x8192) _ hz2, View.readAt_eq_ld, harg2.read_unread, harg3.read_unread, harg4.read_unread, harg5.read_unread, harg8.read_unread,
    View.ld_unit_zero (S := S256x512) hz2, View.ld_unit_zero (S := S512x8192) hz2, View.ld_unit_zero (S := S256x2048) hz2, View.ld_unit_zero (S := S256x8192) hz2, View.ld_unit_zero (S := S8192) hz1]

/-- the new hidden state's block in the first result's buffer, -/
theorem out0_C_4_eq (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) :
    out0_C_4 c i arg2 harg2 arg3 harg3 arg4 harg4 arg5 harg5 arg6 harg6 arg7 harg7 arg8 harg8 hc0 hc1 x0 x1 x2 x3 xs0 = k0_pay4 (k0_pay2 xs0 x0 x1) x2 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S256x2048) hz2]
  simp only [View.readCov_unit_zero (S := S256x8192) _ hz2, View.readAt_eq_ld, harg2.read_unread, harg3.read_unread, harg4.read_unread, harg5.read_unread, harg8.read_unread,
    View.ld_unit_zero (S := S256x512) hz2, View.ld_unit_zero (S := S512x8192) hz2, View.ld_unit_zero (S := S256x2048) hz2, View.ld_unit_zero (S := S256x8192) hz2, View.ld_unit_zero (S := S8192) hz1]

/-- and the new cell state's block in the second's. -/
theorem out0_C_5_eq (c : Dev nD) (i : grid0.Coords) (arg2 : Memref sig .tc .vmem S256x512 .bf16) (harg2 : arg2.IsWhole) (arg3 : Memref sig .tc .vmem S512x8192 .bf16) (harg3 : arg3.IsWhole) (arg4 : Memref sig .tc .vmem S256x2048 .f32) (harg4 : arg4.IsWhole) (arg5 : Memref sig .tc .vmem S8192 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x8192 .f32) (harg8 : arg8.IsWhole) (hc0 : ¬cond0_0 i) (hc1 : cond0_1 i)
    (x0 : Vec F S256x512 .bf16) (x1 : Vec F S512x8192 .bf16) (x2 : Vec F S256x2048 .f32) (x3 : Vec F S8192 .f32) (xs0 : Vec F S256x8192 .f32) :
    out0_C_5 c i arg2 harg2 arg3 harg3 arg4 harg4 arg5 harg5 arg6 harg6 arg7 harg7 arg8 harg8 hc0 hc1 x0 x1 x2 x3 xs0 = k0_pay3 (k0_pay2 xs0 x0 x1) x2 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S256x2048) hz2]
  simp only [View.readCov_unit_zero (S := S256x8192) _ hz2, View.readAt_eq_ld, harg2.read_unread, harg3.read_unread, harg4.read_unread, harg5.read_unread, harg8.read_unread,
    View.ld_unit_zero (S := S256x512) hz2, View.ld_unit_zero (S := S512x8192) hz2, View.ld_unit_zero (S := S256x2048) hz2, View.ld_unit_zero (S := S256x8192) hz2, View.ld_unit_zero (S := S8192) hz1]

end Cert.KernelIdeal.Fr

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Spec.lean ====
import Idealize.ShloMosaic.PureOps.Ideal
import Idealize.ShloMosaic.PureOps.Ideal.Laws
import Idealize.ShloMosaic.Lib.ValueIdx
import Mathlib.Algebra.BigOperators.Fin
import Mathlib.Algebra.BigOperators.Group.Finset.Basic

/-!
# The LSTM cell as one function of its arguments

With `g = x · Wx + h · Wh + b` the 4096 × 8192 matrix of gate pre-activations (its four column bands of width 2048 the
input, forget, candidate and output gates), the new cell state is `σ(g_f) · c + σ(g_i) · tanh(g_c)` and the new hidden
state `σ(g_o) · tanh(c_new)`, entry by entry, on the extended reals.

The kernel forms each entry of `g` in another order: it starts from the bias and adds, eight times, the sum of 512
consecutive products of the row of `[x | h]` with the column of `[Wx ; Wh]`. The two orders give one number because
addition of extended reals is commutative and associative; no entry need be finite.
-/

noncomputable section

open scoped BigOperators

namespace Cert.Lstm

open Idealize.ShloMosaic Idealize.ShloMosaic.ValueIdx

abbrev Mat (a b : ℕ) : Type := (⟨2, ![a, b]⟩ : Shape).Idx → EReal
abbrev Row (n : ℕ) : Type := (⟨1, ![n]⟩ : Shape).Idx → EReal

/-! ## The gate arithmetic, on scalars -/

/-- The new cell state from the input, forget and candidate pre-activations and the old cell state. -/
def cellNew (gi gf gc cc : EReal) : EReal := Ideal.logistic gf * cc + Ideal.logistic gi * Ideal.tanh gc
/-- The new hidden state, from those and the output pre-activation. -/
def hidNew (gi gf gc go cc : EReal) : EReal := Ideal.logistic go * Ideal.tanh (cellNew gi gf gc cc)

/-! ## The gate pre-activations -/

/-- Entry `(r, n)` of `x · Wx + h · Wh + b`, in that order. -/
def gates (x h : Mat 4096 2048) (Wx Wh : Mat 2048 8192) (b : Row 8192) (r : Fin 4096) (n : Fin 8192) : EReal :=
  (∑ k : Fin 2048, x (ix2 r k) * Wx (ix2 k n) + ∑ k : Fin 2048, h (ix2 r k) * Wh (ix2 k n)) + b (ix1 n)

/-- Column `q` of gate band `s`. -/
def gateCol (s : Fin 4) (q : Fin 2048) : Fin 8192 := ⟨2048 * s.val + q.val, by have := s.isLt; have := q.isLt; omega⟩

/-- The new cell state, as one array of the arguments. -/
def newCell (x h c : Mat 4096 2048) (Wx Wh : Mat 2048 8192) (b : Row 8192) : Mat 4096 2048 := fun j =>
  cellNew (gates x h Wx Wh b (j 0) (gateCol 0 (j 1))) (gates x h Wx Wh b (j 0) (gateCol 1 (j 1)))
    (gates x h Wx Wh b (j 0) (gateCol 2 (j 1))) (c j)

/-- The new hidden state, as one array of the arguments. -/
def newHid (x h c : Mat 4096 2048) (Wx Wh : Mat 2048 8192) (b : Row 8192) : Mat 4096 2048 := fun j =>
  hidNew (gates x h Wx Wh b (j 0) (gateCol 0 (j 1))) (gates x h Wx Wh b (j 0) (gateCol 1 (j 1)))
    (gates x h Wx Wh b (j 0) (gateCol 2 (j 1))) (gates x h Wx Wh b (j 0) (gateCol 3 (j 1))) (c j)

/-! ## The same entry, accumulated 512 products at a time -/

/-- Entry `j` of row `r` of `[x | h]`, the reduction coordinate a plain number. -/
def lhsAt (x h : Mat 4096 2048) (r : Fin 4096) (j : ℕ) : EReal :=
  if hj : j < 2048 then x (ix2 r ⟨j, hj⟩) else if hj' : j - 2048 < 2048 then h (ix2 r ⟨j - 2048, hj'⟩) else 0

/-- Entry `j` of column `n` of `[Wx ; Wh]`. -/
def rhsAt (Wx Wh : Mat 2048 8192) (n : Fin 8192) (j : ℕ) : EReal :=
  if hj : j < 2048 then Wx (ix2 ⟨j, hj⟩ n) else if hj' : j - 2048 < 2048 then Wh (ix2 ⟨j - 2048, hj'⟩ n) else 0

/-- The `j`-th product of the contraction. -/
def term (x h : Mat 4096 2048) (Wx Wh : Mat 2048 8192) (r : Fin 4096) (n : Fin 8192) (j : ℕ) : EReal :=
  lhsAt x h r j * rhsAt Wx Wh n j

/-- The accumulator's entry after reduction step `k`: the bias plus the first block of 512 products, then one more
    block at each step. -/
def accK (x h : Mat 4096 2048) (Wx Wh : Mat 2048 8192) (b : Row 8192) (r : Fin 4096) (n : Fin 8192) : ℕ → EReal
  | 0 => b (ix1 n) + ∑ l ∈ Finset.range 512, term x h Wx Wh r n l
  | k + 1 => accK x h Wx Wh b r n k + ∑ l ∈ Finset.range 512, term x h Wx Wh r n (512 * (k + 1) + l)

variable (x h : Mat 4096 2048) (Wx Wh : Mat 2048 8192) (b : Row 8192) (r : Fin 4096) (n : Fin 8192)

/-- After step `k` the accumulator is the bias plus the first `512 (k + 1)` products. -/
theorem accK_eq (k : ℕ) :
    accK x h Wx Wh b r n k = b (ix1 n) + ∑ j ∈ Finset.range (512 * (k + 1)), term x h Wx Wh r n j := by
  induction k with
  | zero => rfl
  | succ k ih =>
    rw [accK, ih, add_assoc, show 512 * (k + 1 + 1) = 512 * (k + 1) + 512 from by ring, Finset.sum_range_add]

/-- The first 2048 products are those of `x · Wx`. -/
theorem sum_term_lo :
    ∑ j ∈ Finset.range 2048, term x h Wx Wh r n j = ∑ k : Fin 2048, x (ix2 r k) * Wx (ix2 k n) := by
  rw [Finset.sum_range]
  refine Finset.sum_congr rfl fun k _ => ?_
  unfold term lhsAt rhsAt
  rw [dif_pos k.isLt, dif_pos k.isLt]

/-- The last 2048 are those of `h · Wh`. -/
theorem sum_term_hi :
    ∑ j ∈ Finset.range 2048, term x h Wx Wh r n (2048 + j) = ∑ k : Fin 2048, h (ix2 r k) * Wh (ix2 k n) := by
  rw [Finset.sum_range]
  refine Finset.sum_congr rfl fun k _ => ?_
  have hk := k.isLt
  have e : (⟨2048 + k.val - 2048, by omega⟩ : Fin 2048) = k := Fin.ext (by show 2048 + k.val - 2048 = k.val; omega)
  unfold term lhsAt rhsAt
  rw [dif_neg (by omega), dif_pos (show 2048 + k.val - 2048 < 2048 by omega), dif_neg (by omega),
    dif_pos (show 2048 + k.val - 2048 < 2048 by omega), e]

/-- After the eighth step the accumulator holds the gate pre-activation. -/
theorem accK_last : accK x h Wx Wh b r n 7 = gates x h Wx Wh b r n := by
  rw [accK_eq, show 512 * (7 + 1) = 2048 + 2048 from by norm_num, Finset.sum_range_add, sum_term_lo, sum_term_hi, gates,
    add_comm]

/-! ## The float literal of the reference's quotient -/

/-- The word `0x3F800000` is the number one. -/
theorem ofBits_one_f32 : Ideal.ofBits .f32 0x3F800000#32 = 1 := by
  simp [Ideal.ofBits, Ideal.ieee, -EReal.coe_mul]; norm_num

/-- `1 / (1 + e^(-g))` spelt with the host's negation, exponential, sum and quotient is the logistic function. -/
theorem logistic_spelt (g : EReal) : Ideal.div 1 (1 + Ideal.exp (-g)) = Ideal.logistic g := rfl

end Cert.Lstm

end
-- ==== Proof.KernelIdeal.PayIdx.lean ====
import proofs.«117353_j21088289423624_1_alg».proof.Proof.Gen.KernelIdeal.Skeleton
import proofs.«117353_j21088289423624_1_alg».proof.Proof.LibDot2
import proofs.«117353_j21088289423624_1_alg».proof.Proof.Spec
import Idealize.ShloMosaic.Lib.Pipeline.Value

/-!
# The body's arithmetic at an index, on the extended reals

Entry `(p, n)` of the update is the accumulator's entry plus the sum over this step's 512 products; the bias store's
entry is the bias at the column; and entry `(p, q)` of each result block is the gate arithmetic of the accumulator's
entries in row `p` at column `q` of the four bands and of the cell-state block's entry.
-/

noncomputable section

namespace Cert.KernelIdeal.PayIdx

open Cert.KernelIdeal Cert.KernelIdeal.Gen Idealize.ShloMosaic Idealize.ShloMosaic.ValueIdx Cert.Lstm
open scoped BigOperators

/-- The printed dimension numbers are those of the plain product of a 256 × 512 by a 512 × 8192 matrix. -/
theorem dot_eq : dot_S256x512_S512x8192_S256x8192_1_0_0_1_n_n = Dot2.mmDims 256 512 8192 dot_S256x512_S512x8192_S256x8192_1_0_0_1_n_n.wf := rfl

/-- The update: the accumulator plus the product of the two blocks. -/
theorem pay2_apply (acc : Vec Ideal S256x8192 .f32) (a : Vec Ideal S256x512 .bf16) (w : Vec Ideal S512x8192 .bf16)
    (p : Fin 256) (n : Fin 8192) :
    k0_pay2 acc a w (ix2 p n) = acc (ix2 p n) + ∑ l : Fin 512, a (ix2 p l) * w (ix2 l n) := by
  unfold k0_pay2
  simp only [shapeCast_self]
  exact congrArg (acc (ix2 p n) + ·) (Dot2.matmul_zero_mm_apply dot_S256x512_S512x8192_S256x8192_1_0_0_1_n_n.wf none a w p n)

/-- The bias store: the bias row, the same down every row of the tile. -/
theorem pay1_apply (b : Vec Ideal S8192 .f32) (p : Fin 256) (n : Fin 8192) : k0_pay1 b (ix2 p n) = b (ix1 n) := by
  unfold k0_pay1
  simp only [shapeCast_self]
  rw [broadcastTo_apply _ broadcasts_S1x8192_S256x8192 (ix2 p n) (ix2 (0 : Fin 1) n) (fun a => by
    match a with
    | ⟨0, _⟩ => show 0 = if (1 : Nat) = 1 then 0 else p.val; rw [if_pos rfl]
    | ⟨1, _⟩ => show n.val = if (8192 : Nat) = 1 then 0 else n.val; rw [if_neg (by decide)])]
  rw [shapeCast_addUnit_apply ![8192] b shapeCasts_S8192_S1x8192 (ix2 (0 : Fin 1) n)]
  exact congrArg b (funext fun a => by match a with | ⟨0, _⟩ => rfl)

/-- A band of the accumulator tile. -/
theorem band0 (acc : Vec Ideal S256x8192 .f32) (p : Fin 256) (q : Fin 2048) :
    extractStridedSlice S256x2048 ![0, 0] acc slices_S256x8192_o0_0_S256x2048 (ix2 p q) = acc (ix2 p (gateCol 0 q)) :=
  extractStridedSlice_apply ![0, 0] acc slices_S256x8192_o0_0_S256x2048 (ix2 p q) (ix2 p (gateCol 0 q)) (fun a => by
    match a with
    | ⟨0, _⟩ => show p.val = 0 + p.val; omega
    | ⟨1, _⟩ => show 2048 * 0 + q.val = 0 + q.val; omega)
theorem band1 (acc : Vec Ideal S256x8192 .f32) (p : Fin 256) (q : Fin 2048) :
    extractStridedSlice S256x2048 ![0, 2048] acc slices_S256x8192_o0_2048_S256x2048 (ix2 p q) = acc (ix2 p (gateCol 1 q)) :=
  extractStridedSlice_apply ![0, 2048] acc slices_S256x8192_o0_2048_S256x2048 (ix2 p q) (ix2 p (gateCol 1 q)) (fun a => by
    match a with
    | ⟨0, _⟩ => show p.val = 0 + p.val; omega
    | ⟨1, _⟩ => show 2048 * 1 + q.val = 2048 + q.val; omega)
theorem band2 (acc : Vec Ideal S256x8192 .f32) (p : Fin 256) (q : Fin 2048) :
    extractStridedSlice S256x2048 ![0, 4096] acc slices_S256x8192_o0_4096_S256x2048 (ix2 p q) = acc (ix2 p (gateCol 2 q)) :=
  extractStridedSlice_apply ![0, 4096] acc slices_S256x8192_o0_4096_S256x2048 (ix2 p q) (ix2 p (gateCol 2 q)) (fun a => by
    match a with
    | ⟨0, _⟩ => show p.val = 0 + p.val; omega
    | ⟨1, _⟩ => show 2048 * 2 + q.val = 4096 + q.val; omega)
theorem band3 (acc : Vec Ideal S256x8192 .f32) (p : Fin 256) (q : Fin 2048) :
    extractStridedSlice S256x2048 ![0, 6144] acc slices_S256x8192_o0_6144_S256x2048 (ix2 p q) = acc (ix2 p (gateCol 3 q)) :=
  extractStridedSlice_apply ![0, 6144] acc slices_S256x8192_o0_6144_S256x2048 (ix2 p q) (ix2 p (gateCol 3 q)) (fun a => by
    match a with
    | ⟨0, _⟩ => show p.val = 0 + p.val; omega
    | ⟨1, _⟩ => show 2048 * 3 + q.val = 6144 + q.val; omega)

/-- The new cell state's block. -/
theorem pay3_apply (acc : Vec Ideal S256x8192 .f32) (cc : Vec Ideal S256x2048 .f32) (p : Fin 256) (q : Fin 2048) :
    k0_pay3 acc cc (ix2 p q)
      = cellNew (acc (ix2 p (gateCol 0 q))) (acc (ix2 p (gateCol 1 q))) (acc (ix2 p (gateCol 2 q))) (cc (ix2 p q)) := by
  show Ideal.logistic (extractStridedSlice S256x2048 ![0, 2048] acc slices_S256x8192_o0_2048_S256x2048 (ix2 p q)) * cc (ix2 p q)
      + Ideal.logistic (extractStridedSlice S256x2048 ![0, 0] acc slices_S256x8192_o0_0_S256x2048 (ix2 p q))
        * Ideal.tanh (extractStridedSlice S256x2048 ![0, 4096] acc slices_S256x8192_o0_4096_S256x2048 (ix2 p q)) = _
  rw [band0, band1, band2]
  rfl

/-- The new hidden state's block. -/
theorem pay4_apply (acc : Vec Ideal S256x8192 .f32) (cc : Vec Ideal S256x2048 .f32) (p : Fin 256) (q : Fin 2048) :
    k0_pay4 acc cc (ix2 p q)
      = hidNew (acc (ix2 p (gateCol 0 q))) (acc (ix2 p (gateCol 1 q))) (acc (ix2 p (gateCol 2 q))) (acc (ix2 p (gateCol 3 q)))
          (cc (ix2 p q)) := by
  show Ideal.logistic (extractStridedSlice S256x2048 ![0, 6144] acc slices_S256x8192_o0_6144_S256x2048 (ix2 p q))
      * Ideal.tanh (k0_pay3 acc cc (ix2 p q)) = _
  rw [band3, pay3_apply]
  rfl

end Cert.KernelIdeal.PayIdx

end
-- ==== Proof.KernelIdeal.Blocks.lean ====
import proofs.«117353_j21088289423624_1_alg».proof.Proof.KernelIdeal.Frame
import proofs.«117353_j21088289423624_1_alg».proof.Proof.Spec
import Idealize.ShloMosaic.Lib.StableHlo.Run
import Idealize.ShloMosaic.Lib.Pipeline.Value

/-!
# What the region reads, index by index

The region's first window is `[x | h]` and its second `[Wx ; Wh]` (narrowed to bf16, which on the extended reals
changes nothing), its third the cell state and its fourth the four biases end to end. At grid point `t`, row tile
`t / 8` and reduction step `t mod 8`, the first window's block is rows `256 (t / 8) …` and columns `512 (t mod 8) …`
of the first array, the second's is rows `512 (t mod 8) …` of the second, the third's rows `256 (t / 8) …` of the
cell state, and the fourth's the whole bias row.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.Lstm
open scoped BigOperators

/-! ## The arguments -/

abbrev aX (c : Dev nD) : Mat 4096 2048 := (m ((c : Thread nD τ).loc main_arg0))
abbrev aH (c : Dev nD) : Mat 4096 2048 := (m ((c : Thread nD τ).loc main_arg1))
abbrev aC (c : Dev nD) : Mat 4096 2048 := (m ((c : Thread nD τ).loc main_arg2))
/-- The four input-side weight matrices side by side (input, forget, candidate, output). -/
def aWx (c : Dev nD) : Mat 2048 8192 :=
  concatenate S2048x8192 1 [⟨S2048x2048, (m ((c : Thread nD τ).loc main_arg3))⟩, ⟨S2048x2048, (m ((c : Thread nD τ).loc main_arg5))⟩, ⟨S2048x2048, (m ((c : Thread nD τ).loc main_arg9))⟩, ⟨S2048x2048, (m ((c : Thread nD τ).loc main_arg7))⟩] concatenates_S2048x2048_S2048x2048_S2048x2048_S2048x2048_S2048x8192_d1
/-- The four recurrent ones likewise. -/
def aWh (c : Dev nD) : Mat 2048 8192 :=
  concatenate S2048x8192 1 [⟨S2048x2048, (m ((c : Thread nD τ).loc main_arg4))⟩, ⟨S2048x2048, (m ((c : Thread nD τ).loc main_arg6))⟩, ⟨S2048x2048, (m ((c : Thread nD τ).loc main_arg10))⟩, ⟨S2048x2048, (m ((c : Thread nD τ).loc main_arg8))⟩] concatenates_S2048x2048_S2048x2048_S2048x2048_S2048x2048_S2048x8192_d1
/-- The four biases end to end. -/
def aB (c : Dev nD) : Row 8192 :=
  concatenate S8192 0 [⟨S2048, (m ((c : Thread nD τ).loc main_arg11))⟩, ⟨S2048, (m ((c : Thread nD τ).loc main_arg12))⟩, ⟨S2048, (m ((c : Thread nD τ).loc main_arg14))⟩, ⟨S2048, (m ((c : Thread nD τ).loc main_arg13))⟩] concatenates_S2048_S2048_S2048_S2048_S8192_d0

/-! ## The windows' arrays as the region finds them -/

theorem V_v5 (c : Dev nD) : (V m c main_v5 : S4096x4096.Idx → Elt Ideal .bf16)
    = (truncf (F := Ideal) .bf16 (concatenate S4096x4096 1 [⟨S4096x2048, aX m c⟩, ⟨S4096x2048, aH m c⟩] concatenates_S4096x2048_S4096x2048_S4096x4096_d1) bitsLt_bf16_f32 : S4096x4096.Idx → Elt Ideal .bf16) := by
  dsimp only [V, hostOps0]; after_results; try rfl

theorem V_v6 (c : Dev nD) : (V m c main_v6 : S4096x8192.Idx → Elt Ideal .bf16)
    = (truncf (F := Ideal) .bf16 (concatenate S4096x8192 0 [⟨S2048x8192, aWx m c⟩, ⟨S2048x8192, aWh m c⟩] concatenates_S2048x8192_S2048x8192_S4096x8192_d0) bitsLt_bf16_f32 : S4096x8192.Idx → Elt Ideal .bf16) := by
  dsimp only [V, hostOps0]; after_results; try rfl

theorem V_v3 (c : Dev nD) : (V m c main_v3 : S8192.Idx → Elt Ideal .f32) = aB m c := by
  dsimp only [V, hostOps0]; after_results; try rfl

/-- Entry `(r, j)` of the first window's array. -/
theorem xh_at (c : Dev nD) (r : Fin 4096) (j : Fin 4096) :
    V m c main_v5 (ix2 r j) = lhsAt (aX m c) (aH m c) r j.val := by
  rw [V_v5]
  show concatenate S4096x4096 1 [⟨S4096x2048, aX m c⟩, ⟨S4096x2048, aH m c⟩] concatenates_S4096x2048_S4096x2048_S4096x4096_d1 (ix2 r j) = _
  unfold lhsAt
  by_cases hj : j.val < 2048
  · rw [dif_pos hj]
    exact concatenate_pair_apply_left (1 : Fin 2) (aX m c) (aH m c) concatenates_S4096x2048_S4096x2048_S4096x4096_d1 (ix2 r j) rfl (ix2 r ⟨j.val, hj⟩)
      (fun b => by match b with | ⟨0, _⟩ => rfl | ⟨1, _⟩ => rfl)
  · have hj' : j.val - 2048 < 2048 := by have := j.isLt; omega
    rw [dif_neg hj, dif_pos hj']
    exact concatenate_pair_apply_right (1 : Fin 2) (aX m c) (aH m c) concatenates_S4096x2048_S4096x2048_S4096x4096_d1 (ix2 r j) rfl rfl (ix2 r ⟨j.val - 2048, hj'⟩)
      (fun b hb => by match b with | ⟨0, _⟩ => rfl | ⟨1, _⟩ => exact absurd rfl hb)
      (by show j.val - 2048 + 2048 = j.val; omega)

/-- Entry `(j, n)` of the second window's array. -/
theorem w_at (c : Dev nD) (j : Fin 4096) (n : Fin 8192) :
    V m c main_v6 (ix2 j n) = rhsAt (aWx m c) (aWh m c) n j.val := by
  rw [V_v6]
  show concatenate S4096x8192 0 [⟨S2048x8192, aWx m c⟩, ⟨S2048x8192, aWh m c⟩] concatenates_S2048x8192_S2048x8192_S4096x8192_d0 (ix2 j n) = _
  unfold rhsAt
  by_cases hj : j.val < 2048
  · rw [dif_pos hj]
    exact concatenate_pair_apply_left (0 : Fin 2) (aWx m c) (aWh m c) concatenates_S2048x8192_S2048x8192_S4096x8192_d0 (ix2 j n) rfl (ix2 ⟨j.val, hj⟩ n)
      (fun b => by match b with | ⟨0, _⟩ => rfl | ⟨1, _⟩ => rfl)
  · have hj' : j.val - 2048 < 2048 := by have := j.isLt; omega
    rw [dif_neg hj, dif_pos hj']
    exact concatenate_pair_apply_right (0 : Fin 2) (aWx m c) (aWh m c) concatenates_S2048x8192_S2048x8192_S4096x8192_d0 (ix2 j n) rfl rfl (ix2 ⟨j.val - 2048, hj'⟩ n)
      (fun b hb => by match b with | ⟨0, _⟩ => exact absurd rfl hb | ⟨1, _⟩ => rfl)
      (by show j.val - 2048 + 2048 = j.val; omega)

/-! ## The blocks -/

theorem N128 : cfg0.N = 128 := N_0

/-- Where each window's block sits at point `t`: the printed index maps, decided over the grid. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 1) = 0
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- Row `p` of point `t`'s row tile, as a row of the whole arrays. -/
def rowOf (t : Fin cfg0.N) (p : Fin 256) : Fin 4096 :=
  ⟨256 * (t.val / 8) + p.val, by have := lt_of_lt_of_eq t.isLt N128; have := p.isLt; omega⟩
/-- Product `l` of point `t`'s reduction step, as a reduction coordinate of the whole arrays. -/
def redOf (t : Fin cfg0.N) (l : Fin 512) : Fin 4096 :=
  ⟨512 * (t.val % 8) + l.val, by have := l.isLt; omega⟩

/-- The blocks at their literal types. -/
abbrev xhB (c : Dev nD) (t : Fin cfg0.N) : Vec Ideal S256x512 .bf16 := iblk m c 0 t
abbrev wB (c : Dev nD) (t : Fin cfg0.N) : Vec Ideal S512x8192 .bf16 := iblk m c 1 t
abbrev cB (c : Dev nD) (t : Fin cfg0.N) : Vec Ideal S256x2048 .f32 := iblk m c 2 t
abbrev bB (c : Dev nD) (t : Fin cfg0.N) : Vec Ideal S8192 .f32 := iblk m c 3 t

theorem xhB_at (c : Dev nD) (t : Fin cfg0.N) (p : Fin 256) (l : Fin 512) :
    xhB m c t (ix2 p l) = lhsAt (aX m c) (aH m c) (rowOf t p) (512 * (t.val % 8) + l.val) := by
  obtain ⟨e0, e1, -⟩ := idx_facts t
  rw [show 512 * (t.val % 8) + l.val = (redOf t l).val from rfl, ← xh_at]
  show iblk m c 0 t (ix2 p l) = _
  unfold iblk
  rw [View.read_apply]
  show V m c main_v5 _ = V m c main_v5 _
  congr 1
  funext a; apply Fin.ext
  match a with
  | ⟨0, _⟩ => show win0_0.index t (0 : Fin 2) * 256 + 1 * p.val = 256 * (t.val / 8) + p.val; rw [e0]; omega
  | ⟨1, _⟩ => show win0_0.index t (1 : Fin 2) * 512 + 1 * l.val = 512 * (t.val % 8) + l.val; rw [e1]; omega

theorem wB_at (c : Dev nD) (t : Fin cfg0.N) (l : Fin 512) (n : Fin 8192) :
    wB m c t (ix2 l n) = rhsAt (aWx m c) (aWh m c) n (512 * (t.val % 8) + l.val) := by
  obtain ⟨-, -, e0, e1, -⟩ := idx_facts t
  rw [show 512 * (t.val % 8) + l.val = (redOf t l).val from rfl, ← w_at]
  show iblk m c 1 t (ix2 l n) = _
  unfold iblk
  rw [View.read_apply]
  show V m c main_v6 _ = V m c main_v6 _
  congr 1
  funext a; apply Fin.ext
  match a with
  | ⟨0, _⟩ => show win0_1.index t (0 : Fin 2) * 512 + 1 * l.val = 512 * (t.val % 8) + l.val; rw [e0]; omega
  | ⟨1, _⟩ => show win0_1.index t (1 : Fin 2) * 8192 + 1 * n.val = n.val; rw [e1]; omega

theorem cB_at (c : Dev nD) (t : Fin cfg0.N) (p : Fin 256) (q : Fin 2048) :
    cB m c t (ix2 p q) = aC m c (ix2 (rowOf t p) q) := by
  obtain ⟨-, -, -, -, e0, e1, -⟩ := idx_facts t
  show iblk m c 2 t (ix2 p q) = _
  unfold iblk
  rw [View.read_apply]
  show V m c main_arg2 _ = _
  rw [V_main_arg2]
  show (m ((c : Thread nD τ).loc main_arg2)) _ = (m ((c : Thread nD τ).loc main_arg2)) _
  congr 1
  funext a; apply Fin.ext
  match a with
  | ⟨0, _⟩ => show win0_2.index t (0 : Fin 2) * 256 + 1 * p.val = 256 * (t.val / 8) + p.val; rw [e0]; omega
  | ⟨1, _⟩ => show win0_2.index t (1 : Fin 2) * 2048 + 1 * q.val = q.val; rw [e1]; omega

theorem bB_at (c : Dev nD) (t : Fin cfg0.N) (n : Fin 8192) :
    bB m c t (ix1 n) = aB m c (ix1 n) := by
  obtain ⟨-, -, -, -, -, -, e0, -⟩ := idx_facts t
  show iblk m c 3 t (ix1 n) = _
  unfold iblk
  rw [View.read_apply, ← V_v3]
  show V m c main_v3 _ = V m c main_v3 _
  congr 1
  funext a; apply Fin.ext
  match a with
  | ⟨0, _⟩ => show win0_3.index t (0 : Fin 1) * 8192 + 1 * n.val = n.val; rw [e0]; omega

end Cert.KernelIdeal.Fr

end
-- ==== Proof.KernelIdeal.Acc.lean ====
import proofs.«117353_j21088289423624_1_alg».proof.Proof.KernelIdeal.Pieces
import proofs.«117353_j21088289423624_1_alg».proof.Proof.KernelIdeal.PayIdx
import proofs.«117353_j21088289423624_1_alg».proof.Proof.KernelIdeal.Blocks

/-!
# The accumulator, step by step

At point `t` (row tile `t / 8`, reduction step `k = t mod 8`) entry `(p, n)` of the accumulator is the bias at column
`n` plus the first `512 (k + 1)` products of row `256 (t / 8) + p` of `[x | h]` with column `n` of `[Wx ; Wh]`, summed in
the kernel's order: by induction on the point, a first step starting from the bias and every other step from what the
point before left. At a last step that is the gate pre-activation, and the two result buffers hold the gate arithmetic
of it.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.Lstm Cert.KernelIdeal.PayIdx
open scoped BigOperators

/-- The accumulator after point `t`. -/
abbrev accAt (c : Dev nD) (t : Fin cfg0.N) : Vec Ideal S256x8192 .f32 := (outsAt0 m c t.val t.isLt).2.2

/-- A first step: the update of the bias broadcast. -/
theorem acc_first (c : Dev nD) (t : Fin cfg0.N) (h0 : t.val % 8 = 0) :
    accAt m c t = k0_pay2 (k0_pay1 (bB m c t)) (xhB m c t) (wB m c t) := by
  show (outsAt0 m c t.val t.isLt).2.2 = _
  rw [outsAt0_A m c t h0 (by omega)]
  dsimp only
  unfold accA
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t)

/-- Any other step: the update of what the point before left. -/
theorem acc_next (c : Dev nD) (t : Fin cfg0.N) (h0 : ¬t.val % 8 = 0) :
    accAt m c t = k0_pay2 (accAt m c ⟨t.val - 1, Nat.lt_of_le_of_lt (Nat.sub_le _ _) t.isLt⟩) (xhB m c t) (wB m c t) := by
  show (outsAt0 m c t.val t.isLt).2.2 = _
  by_cases h7 : t.val % 8 = 7
  · rw [outsAt0_C m c t h0 h7]
    dsimp only
    unfold accC
    exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) _
  · rw [outsAt0_B m c t h0 h7]
    dsimp only
    unfold accB
    exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) _

/-- At a last step the first result's buffer holds the new hidden state's block of the finished accumulator, -/
theorem hid_last (c : Dev nD) (t : Fin cfg0.N) (h7 : t.val % 8 = 7) :
    (outsAt0 m c t.val t.isLt).1 = k0_pay4 (accAt m c t) (cB m c t) := by
  have h0 : ¬t.val % 8 = 0 := by omega
  rw [acc_next m c t h0, outsAt0_C m c t h0 h7]
  dsimp only
  unfold hidC
  exact out0_C_4_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) _

/-- and the second's the new cell state's. -/
theorem cell_last (c : Dev nD) (t : Fin cfg0.N) (h7 : t.val % 8 = 7) :
    (outsAt0 m c t.val t.isLt).2.1 = k0_pay3 (accAt m c t) (cB m c t) := by
  have h0 : ¬t.val % 8 = 0 := by omega
  rw [acc_next m c t h0, outsAt0_C m c t h0 h7]
  dsimp only
  unfold cellC
  exact out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) _

/-- One step's product at `(p, n)`: the step's 512 terms of the contraction. -/
theorem blk_sum (c : Dev nD) (t : Fin cfg0.N) (p : Fin 256) (n : Fin 8192) :
    ∑ l : Fin 512, xhB m c t (ix2 p l) * wB m c t (ix2 l n)
      = ∑ l ∈ Finset.range 512, term (aX m c) (aH m c) (aWx m c) (aWh m c) (rowOf t p) n (512 * (t.val % 8) + l) := by
  rw [Finset.sum_range]
  refine Finset.sum_congr rfl fun l _ => ?_
  rw [xhB_at, wB_at]
  rfl

theorem accK_zero' (x h : Mat 4096 2048) (Wx Wh : Mat 2048 8192) (b : Row 8192) (r : Fin 4096) (n : Fin 8192) :
    accK x h Wx Wh b r n 0 = b (ix1 n) + ∑ l ∈ Finset.range 512, term x h Wx Wh r n (512 * 0 + l) := by
  simp only [Nat.mul_zero, Nat.zero_add]
  rfl

/-- The accumulator after point `v`, entry by entry. -/
theorem acc_at (c : Dev nD) : ∀ (v : ℕ) (hv : v < cfg0.N) (p : Fin 256) (n : Fin 8192),
    accAt m c ⟨v, hv⟩ (ix2 p n) = accK (aX m c) (aH m c) (aWx m c) (aWh m c) (aB m c) (rowOf ⟨v, hv⟩ p) n (v % 8) := by
  intro v
  induction v with
  | zero =>
    intro hv p n
    rw [acc_first m c ⟨0, hv⟩ rfl, pay2_apply, pay1_apply, bB_at, blk_sum]
    exact (accK_zero' (aX m c) (aH m c) (aWx m c) (aWh m c) (aB m c) (rowOf ⟨0, hv⟩ p) n).symm
  | succ v ih =>
    intro hv p n
    have hv' : v < cfg0.N := Nat.lt_of_succ_lt hv
    by_cases h0 : (v + 1) % 8 = 0
    · rw [acc_first m c ⟨v + 1, hv⟩ h0, pay2_apply, pay1_apply, bB_at, blk_sum]
      show aB m c (ix1 n) + ∑ l ∈ Finset.range 512, term (aX m c) (aH m c) (aWx m c) (aWh m c) (rowOf ⟨v + 1, hv⟩ p) n (512 * ((v + 1) % 8) + l)
        = accK (aX m c) (aH m c) (aWx m c) (aWh m c) (aB m c) (rowOf ⟨v + 1, hv⟩ p) n ((v + 1) % 8)
      rw [h0]
      exact (accK_zero' (aX m c) (aH m c) (aWx m c) (aWh m c) (aB m c) (rowOf ⟨v + 1, hv⟩ p) n).symm
    · rw [acc_next m c ⟨v + 1, hv⟩ h0, pay2_apply, blk_sum]
      have e := ih hv' p n
      have hr : rowOf ⟨v + 1, hv⟩ p = rowOf ⟨v, hv'⟩ p :=
        Fin.ext (by show 256 * ((v + 1) / 8) + p.val = 256 * (v / 8) + p.val; omega)
      have hk : (v + 1) % 8 = v % 8 + 1 := by omega
      show accAt m c ⟨v, hv'⟩ (ix2 p n) + ∑ l ∈ Finset.range 512, term (aX m c) (aH m c) (aWx m c) (aWh m c) (rowOf ⟨v + 1, hv⟩ p) n (512 * ((v + 1) % 8) + l)
        = accK (aX m c) (aH m c) (aWx m c) (aWh m c) (aB m c) (rowOf ⟨v + 1, hv⟩ p) n ((v + 1) % 8)
      rw [e, hr, hk]
      rfl

/-- At a last step the accumulator holds the gate pre-activations of its row tile. -/
theorem acc_last (c : Dev nD) (t : Fin cfg0.N) (h7 : t.val % 8 = 7) (p : Fin 256) (n : Fin 8192) :
    accAt m c t (ix2 p n) = gates (aX m c) (aH m c) (aWx m c) (aWh m c) (aB m c) (rowOf t p) n := by
  have e := acc_at m c t.val t.isLt p n
  rw [h7, accK_last] at e
  exact e

end Cert.KernelIdeal.Fr

end
-- ==== Proof.KernelIdeal.Result.lean ====
import proofs.«117353_j21088289423624_1_alg».proof.Proof.KernelIdeal.Acc

/-!
# The two results as arrays of the arguments

At the last reduction step of row tile `i` the kernel writes back rows `256 i … 256 i + 255` of the new hidden state
and of the new cell state; the sixteen row tiles cover the 4096 rows. So after the run the first result array is the
new hidden state and the second the new cell state, as the specification states them.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.Lstm Cert.KernelIdeal.PayIdx
open scoped BigOperators

abbrev resHid (c : Dev nD) : Buf (Elt Ideal) ((c : Thread nD τ).loc main_v7_0) := newHid (aX m c) (aH m c) (aC m c) (aWx m c) (aWh m c) (aB m c)
abbrev resCell (c : Dev nD) : Buf (Elt Ideal) ((c : Thread nD τ).loc main_v7_1) := newCell (aX m c) (aH m c) (aC m c) (aWx m c) (aWh m c) (aB m c)

theorem blk4_eq (c : Dev nD) (t : Fin cfg0.N) (h7 : t.val % 8 = 7) (y : S256x2048.Idx) :
    k0_pay4 (accAt m c t) (cB m c t) y = resHid m c (ix2 (rowOf t (y 0)) (y 1)) := by
  obtain ⟨p, q, rfl⟩ : ∃ (p : Fin 256) (q : Fin 2048), y = ix2 p q := ⟨y 0, y 1, eq_ix2 y⟩
  rw [pay4_apply, acc_last m c t h7, acc_last m c t h7, acc_last m c t h7, acc_last m c t h7, cB_at]
  rfl

/-- What a last step writes back to result 0 is its block of the array. -/
theorem flushed4_eq (c : Dev nD) (t : Fin cfg0.N) (hf : (cfg0.win 4).flush t = true) :
    (dats m 0 c).flushed 4 t = ((cfg0.win 4).blk t).view.read (Elt Ideal) (resHid m c) := by
  have h7 : t.val % 8 = 7 := (flush0_4 t).mp hf
  have e0 : win0_4.index t (0 : Fin 2) = t.val / 8 := (idx_facts t).2.2.2.2.2.2.2.1
  have e1 : win0_4.index t (1 : Fin 2) = 0 := (idx_facts t).2.2.2.2.2.2.2.2.1
  show (cfg0.win 4).cut (grid0.coords t) ((dats m 0 c).after 4 t) = _
  rw [after0_4, hid_last m c t h7]
  funext y
  rw [View.read_apply]
  show k0_pay4 (accAt m c t) (cB m c t) y = resHid m c (((cfg0.win 4).blk t).view.emb y)
  have hemb : ((cfg0.win 4).blk t).view.emb y = ix2 (rowOf t (y 0)) (y 1) := by
    funext a; apply Fin.ext
    match a with
    | ⟨0, _⟩ => show win0_4.index t (0 : Fin 2) * 256 + 1 * (y 0).val = 256 * (t.val / 8) + (y 0).val; rw [e0]; omega
    | ⟨1, _⟩ => show win0_4.index t (1 : Fin 2) * 2048 + 1 * (y 1).val = (y 1).val; rw [e1]; omega
  rw [hemb]
  exact blk4_eq m c t h7 y

theorem mem_blk4 (t : Fin cfg0.N) (i : S4096x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v7_0).slice (win0_4.rect t)).set ↔ _
  rw [View.set_slice_whole, Rect.mem_set_unit]
  exact Iff.rfl

/-- Every row of the result lies in the block its row tile's last step writes back. -/
theorem cover4 (i : S4096x2048.Idx) :
    ∃ t : Fin cfg0.N, (cfg0.win 4).flush t = true ∧ i ∈ ((cfg0.win 4).blk t).view.set := by
  have hi0 : (i 0).val < 4096 := (i 0).isLt
  have hi1 : (i 1).val < 2048 := (i 1).isLt
  have hlt : 8 * ((i 0).val / 256) + 7 < cfg0.N := by rw [N128]; omega
  have ht7 : (8 * ((i 0).val / 256) + 7) % 8 = 7 := by omega
  have htd : (8 * ((i 0).val / 256) + 7) / 8 = (i 0).val / 256 := by omega
  have e0 : win0_4.index ⟨8 * ((i 0).val / 256) + 7, hlt⟩ (0 : Fin 2) = (8 * ((i 0).val / 256) + 7) / 8 := (idx_facts ⟨_, hlt⟩).2.2.2.2.2.2.2.1
  have e1 : win0_4.index ⟨8 * ((i 0).val / 256) + 7, hlt⟩ (1 : Fin 2) = 0 := (idx_facts ⟨_, hlt⟩).2.2.2.2.2.2.2.2.1
  refine ⟨⟨8 * ((i 0).val / 256) + 7, hlt⟩, (flush0_4 _).mpr ht7, ?_⟩
  rw [mem_blk4]
  intro a
  match a with
  | ⟨0, _⟩ =>
    show win0_4.index ⟨8 * ((i 0).val / 256) + 7, hlt⟩ (0 : Fin 2) * 256 ≤ (i 0).val ∧ (i 0).val < win0_4.index ⟨8 * ((i 0).val / 256) + 7, hlt⟩ (0 : Fin 2) * 256 + 256
    rw [e0, htd]; omega
  | ⟨1, _⟩ =>
    show win0_4.index ⟨8 * ((i 0).val / 256) + 7, hlt⟩ (1 : Fin 2) * 2048 ≤ (i 1).val ∧ (i 1).val < win0_4.index ⟨8 * ((i 0).val / 256) + 7, hlt⟩ (1 : Fin 2) * 2048 + 2048
    rw [e1]; omega

/-- Result 0 after the run. -/
theorem final4 (c : Dev nD) : (dats m 0 c).arrAt 4 cfg0.N = resHid m c :=
  (dats m 0 c).arrAt_eq_of_cover 4 (resHid m c) (flushed4_eq m c) cover4

theorem blk5_eq (c : Dev nD) (t : Fin cfg0.N) (h7 : t.val % 8 = 7) (y : S256x2048.Idx) :
    k0_pay3 (accAt m c t) (cB m c t) y = resCell m c (ix2 (rowOf t (y 0)) (y 1)) := by
  obtain ⟨p, q, rfl⟩ : ∃ (p : Fin 256) (q : Fin 2048), y = ix2 p q := ⟨y 0, y 1, eq_ix2 y⟩
  rw [pay3_apply, acc_last m c t h7, acc_last m c t h7, acc_last m c t h7, cB_at]
  rfl

/-- What a last step writes back to result 1 is its block of the array. -/
theorem flushed5_eq (c : Dev nD) (t : Fin cfg0.N) (hf : (cfg0.win 5).flush t = true) :
    (dats m 0 c).flushed 5 t = ((cfg0.win 5).blk t).view.read (Elt Ideal) (resCell m c) := by
  have h7 : t.val % 8 = 7 := (flush0_5 t).mp hf
  have e0 : win0_5.index t (0 : Fin 2) = t.val / 8 := (idx_facts t).2.2.2.2.2.2.2.2.2.1
  have e1 : win0_5.index t (1 : Fin 2) = 0 := (idx_facts t).2.2.2.2.2.2.2.2.2.2
  show (cfg0.win 5).cut (grid0.coords t) ((dats m 0 c).after 5 t) = _
  rw [after0_5, cell_last m c t h7]
  funext y
  rw [View.read_apply]
  show k0_pay3 (accAt m c t) (cB m c t) y = resCell m c (((cfg0.win 5).blk t).view.emb y)
  have hemb : ((cfg0.win 5).blk t).view.emb y = ix2 (rowOf t (y 0)) (y 1) := by
    funext a; apply Fin.ext
    match a with
    | ⟨0, _⟩ => show win0_5.index t (0 : Fin 2) * 256 + 1 * (y 0).val = 256 * (t.val / 8) + (y 0).val; rw [e0]; omega
    | ⟨1, _⟩ => show win0_5.index t (1 : Fin 2) * 2048 + 1 * (y 1).val = (y 1).val; rw [e1]; omega
  rw [hemb]
  exact blk5_eq m c t h7 y

theorem mem_blk5 (t : Fin cfg0.N) (i : S4096x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v7_1).slice (win0_5.rect t)).set ↔ _
  rw [View.set_slice_whole, Rect.mem_set_unit]
  exact Iff.rfl

/-- Every row of the result lies in the block its row tile's last step writes back. -/
theorem cover5 (i : S4096x2048.Idx) :
    ∃ t : Fin cfg0.N, (cfg0.win 5).flush t = true ∧ i ∈ ((cfg0.win 5).blk t).view.set := by
  have hi0 : (i 0).val < 4096 := (i 0).isLt
  have hi1 : (i 1).val < 2048 := (i 1).isLt
  have hlt : 8 * ((i 0).val / 256) + 7 < cfg0.N := by rw [N128]; omega
  have ht7 : (8 * ((i 0).val / 256) + 7) % 8 = 7 := by omega
  have htd : (8 * ((i 0).val / 256) + 7) / 8 = (i 0).val / 256 := by omega
  have e0 : win0_5.index ⟨8 * ((i 0).val / 256) + 7, hlt⟩ (0 : Fin 2) = (8 * ((i 0).val / 256) + 7) / 8 := (idx_facts ⟨_, hlt⟩).2.2.2.2.2.2.2.2.2.1
  have e1 : win0_5.index ⟨8 * ((i 0).val / 256) + 7, hlt⟩ (1 : Fin 2) = 0 := (idx_facts ⟨_, hlt⟩).2.2.2.2.2.2.2.2.2.2
  refine ⟨⟨8 * ((i 0).val / 256) + 7, hlt⟩, (flush0_5 _).mpr ht7, ?_⟩
  rw [mem_blk5]
  intro a
  match a with
  | ⟨0, _⟩ =>
    show win0_5.index ⟨8 * ((i 0).val / 256) + 7, hlt⟩ (0 : Fin 2) * 256 ≤ (i 0).val ∧ (i 0).val < win0_5.index ⟨8 * ((i 0).val / 256) + 7, hlt⟩ (0 : Fin 2) * 256 + 256
    rw [e0, htd]; omega
  | ⟨1, _⟩ =>
    show win0_5.index ⟨8 * ((i 0).val / 256) + 7, hlt⟩ (1 : Fin 2) * 2048 ≤ (i 1).val ∧ (i 1).val < win0_5.index ⟨8 * ((i 0).val / 256) + 7, hlt⟩ (1 : Fin 2) * 2048 + 2048
    rw [e1]; omega

/-- Result 1 after the run. -/
theorem final5 (c : Dev nD) : (dats m 0 c).arrAt 5 cfg0.N = resCell m c :=
  (dats m 0 c).arrAt_eq_of_cover 5 (resCell m c) (flushed5_eq m c) cover5

/-- The idealized kernel's run: both results named, every argument as launched. -/
theorem run_value : θ_run defs (onTc (τ := τ) (main (F := Ideal))) ⟨m, fun _ => 0, ρ⟩ (fun r => ∀ c : Dev nD,
      r.2.mem ((c.tc : Thread nD τ).loc main_v7_0) = resHid m c
      ∧ r.2.mem ((c.tc : Thread nD τ).loc main_v7_1) = resCell m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 4).trans (final4 m c), ((h c).1 5).trans (final5 m c),
    args_kept m (dats m) (A_eq m) r h c⟩) (run_main m ρ)

end Cert.KernelIdeal.Fr

end
-- ==== Proof.RefG.lean ====
import proofs.«117353_j21088289423624_1_alg».proof.Proof.Gen.ReferenceIdeal.Read
import proofs.«117353_j21088289423624_1_alg».proof.Proof.Spec

/-!
# The reference computes the cell

Read one host operation at a time, the reference's two results are the specification's arrays: its two matrix products
are the two sums of `gates`, its broadcast bias the third summand, its four column slices the four gate bands, and its
`1 / (1 + e^(-g))` the logistic function.
-/

noncomputable section

namespace Cert.ReferenceIdeal.RefG

open Cert.ReferenceIdeal Cert.ReferenceIdeal.Gen Cert.ReferenceIdeal.Read Idealize.ShloMosaic Idealize.ShloMosaic.ValueIdx Cert.Lstm

/-! ## The host's spelling of the gate arithmetic, on scalars -/

/-- The host's `1 / (1 + e^(-g))`, with its own negation, exponential and quotient, is the logistic function. -/
theorem sigma_spelt (g : Ideal .f32) :
    FloatOps.hostDivf (1 : Ideal .f32) (FloatOps.addf 1 (FloatOps.hostUnary .exp (FloatOps.hostNegf g))) = Ideal.logistic g := rfl

theorem cell_spelt (gi gf gc cc : Ideal .f32) :
    FloatOps.addf (FloatOps.mulf (Ideal.logistic gf) cc) (FloatOps.mulf (Ideal.logistic gi) (FloatOps.hostUnary .tanh gc))
      = cellNew gi gf gc cc := rfl

theorem hid_spelt (gi gf gc go cc : Ideal .f32) :
    FloatOps.mulf (F := Ideal) (φ := .f32) (Ideal.logistic go) (FloatOps.hostUnary .tanh (cellNew gi gf gc cc)) = hidNew gi gf gc go cc := rfl

theorem one_eq : (FloatOps.ofBits .f32 0x3F800000#32 : Ideal .f32) = 1 := ofBits_one_f32

variable (x0 x1 x2 : (⟨S4096x2048, .f32⟩ : BufTy).Contents (Elt Ideal))
  (x3 x4 x5 x6 x7 x8 x9 x10 : (⟨S2048x2048, .f32⟩ : BufTy).Contents (Elt Ideal))
  (x11 x12 x13 x14 : (⟨S2048, .f32⟩ : BufTy).Contents (Elt Ideal))

/-- The reference's `x · Wx + h · Wh + b` at an index is `gates` of its own concatenated weights and biases. -/
theorem gates_eq (i : S4096x8192.Idx) :
    val_main_v8 (F := Ideal) x0 x1 x3 x4 x5 x6 x7 x8 x9 x10 x11 x12 x13 x14 i = gates x0 x1 (val_main_v0 (F := Ideal) x3 x5 x7 x9) (val_main_v1 (F := Ideal) x4 x6 x8 x10) (val_main_v2 (F := Ideal) x11 x12 x13 x14) (i 0) (i 1) := by
  rw [val_main_v8_apply, val_main_v5_apply, val_main_v3_apply, val_main_v4_apply, val_main_v7_apply, val_main_v6_apply]
  have el3 : ∀ k, lidx_main_v3 i k = ix2 (i 0) k := fun k => funext fun a => by match a with | ⟨0, _⟩ => rfl | ⟨1, _⟩ => rfl
  have er3 : ∀ k, ridx_main_v3 i k = ix2 k (i 1) := fun k => funext fun a => by match a with | ⟨0, _⟩ => rfl | ⟨1, _⟩ => rfl
  have el4 : ∀ k, lidx_main_v4 i k = ix2 (i 0) k := fun k => funext fun a => by match a with | ⟨0, _⟩ => rfl | ⟨1, _⟩ => rfl
  have er4 : ∀ k, ridx_main_v4 i k = ix2 k (i 1) := fun k => funext fun a => by match a with | ⟨0, _⟩ => rfl | ⟨1, _⟩ => rfl
  have eb : idx_main_v6 (idx_main_v7 i) = ix1 (i 1) := funext fun a => by match a with | ⟨0, _⟩ => rfl
  simp only [el3, er3, el4, er4, eb]
  rfl

/-- The four slices read the four gate bands. -/
theorem gband0 (j : S4096x2048.Idx) :
    gates x0 x1 (val_main_v0 (F := Ideal) x3 x5 x7 x9) (val_main_v1 (F := Ideal) x4 x6 x8 x10) (val_main_v2 (F := Ideal) x11 x12 x13 x14) ((idx_main_v9 j) 0) ((idx_main_v9 j) 1) = gates x0 x1 (val_main_v0 (F := Ideal) x3 x5 x7 x9) (val_main_v1 (F := Ideal) x4 x6 x8 x10) (val_main_v2 (F := Ideal) x11 x12 x13 x14) (j 0) (gateCol 0 (j 1)) :=
  congrArg (fun n => gates x0 x1 (val_main_v0 (F := Ideal) x3 x5 x7 x9) (val_main_v1 (F := Ideal) x4 x6 x8 x10) (val_main_v2 (F := Ideal) x11 x12 x13 x14) (j 0) n) (Fin.ext (by show (j 1).val = 2048 * 0 + (j 1).val; omega))
theorem gband1 (j : S4096x2048.Idx) :
    gates x0 x1 (val_main_v0 (F := Ideal) x3 x5 x7 x9) (val_main_v1 (F := Ideal) x4 x6 x8 x10) (val_main_v2 (F := Ideal) x11 x12 x13 x14) ((idx_main_v10 j) 0) ((idx_main_v10 j) 1) = gates x0 x1 (val_main_v0 (F := Ideal) x3 x5 x7 x9) (val_main_v1 (F := Ideal) x4 x6 x8 x10) (val_main_v2 (F := Ideal) x11 x12 x13 x14) (j 0) (gateCol 1 (j 1)) :=
  congrArg (fun n => gates x0 x1 (val_main_v0 (F := Ideal) x3 x5 x7 x9) (val_main_v1 (F := Ideal) x4 x6 x8 x10) (val_main_v2 (F := Ideal) x11 x12 x13 x14) (j 0) n) (Fin.ext (by show 2048 + (j 1).val = 2048 * 1 + (j 1).val; omega))
theorem gband2 (j : S4096x2048.Idx) :
    gates x0 x1 (val_main_v0 (F := Ideal) x3 x5 x7 x9) (val_main_v1 (F := Ideal) x4 x6 x8 x10) (val_main_v2 (F := Ideal) x11 x12 x13 x14) ((idx_main_v11 j) 0) ((idx_main_v11 j) 1) = gates x0 x1 (val_main_v0 (F := Ideal) x3 x5 x7 x9) (val_main_v1 (F := Ideal) x4 x6 x8 x10) (val_main_v2 (F := Ideal) x11 x12 x13 x14) (j 0) (gateCol 2 (j 1)) :=
  congrArg (fun n => gates x0 x1 (val_main_v0 (F := Ideal) x3 x5 x7 x9) (val_main_v1 (F := Ideal) x4 x6 x8 x10) (val_main_v2 (F := Ideal) x11 x12 x13 x14) (j 0) n) (Fin.ext (by show 4096 + (j 1).val = 2048 * 2 + (j 1).val; omega))
theorem gband3 (j : S4096x2048.Idx) :
    gates x0 x1 (val_main_v0 (F := Ideal) x3 x5 x7 x9) (val_main_v1 (F := Ideal) x4 x6 x8 x10) (val_main_v2 (F := Ideal) x11 x12 x13 x14) ((idx_main_v12 j) 0) ((idx_main_v12 j) 1) = gates x0 x1 (val_main_v0 (F := Ideal) x3 x5 x7 x9) (val_main_v1 (F := Ideal) x4 x6 x8 x10) (val_main_v2 (F := Ideal) x11 x12 x13 x14) (j 0) (gateCol 3 (j 1)) :=
  congrArg (fun n => gates x0 x1 (val_main_v0 (F := Ideal) x3 x5 x7 x9) (val_main_v1 (F := Ideal) x4 x6 x8 x10) (val_main_v2 (F := Ideal) x11 x12 x13 x14) (j 0) n) (Fin.ext (by show 6144 + (j 1).val = 2048 * 3 + (j 1).val; omega))

/-- The reference's second result is the new cell state. -/
theorem cell_eq :
    val_main_v34 (F := Ideal) x0 x1 x2 x3 x4 x5 x6 x7 x8 x9 x10 x11 x12 x13 x14 = newCell x0 x1 x2 (val_main_v0 (F := Ideal) x3 x5 x7 x9) (val_main_v1 (F := Ideal) x4 x6 x8 x10)
          (val_main_v2 (F := Ideal) x11 x12 x13 x14) := by
  funext j
  simp only [val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_cst_apply, val_main_cst_0_apply, val_main_cst_1_apply, val_main_cst_2_apply, val_main_cst_3_apply, val_main_cst_4_apply, one_eq, sigma_spelt]
  rw [gates_eq x0 x1 x3 x4 x5 x6 x7 x8 x9 x10 x11 x12 x13 x14 (idx_main_v10 j), gates_eq x0 x1 x3 x4 x5 x6 x7 x8 x9 x10 x11 x12 x13 x14 (idx_main_v9 j), gates_eq x0 x1 x3 x4 x5 x6 x7 x8 x9 x10 x11 x12 x13 x14 (idx_main_v11 j),
    gband0, gband1, gband2, cell_spelt]
  rfl

/-- The reference's first result is the new hidden state. -/
theorem hid_eq :
    val_main_v36 (F := Ideal) x0 x1 x2 x3 x4 x5 x6 x7 x8 x9 x10 x11 x12 x13 x14 = newHid x0 x1 x2 (val_main_v0 (F := Ideal) x3 x5 x7 x9) (val_main_v1 (F := Ideal) x4 x6 x8 x10)
          (val_main_v2 (F := Ideal) x11 x12 x13 x14) := by
  funext j
  simp only [val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_cst_apply, val_main_cst_0_apply, val_main_cst_1_apply, val_main_cst_2_apply, val_main_cst_3_apply, val_main_cst_4_apply, one_eq, sigma_spelt]
  rw [gates_eq x0 x1 x3 x4 x5 x6 x7 x8 x9 x10 x11 x12 x13 x14 (idx_main_v12 j), gates_eq x0 x1 x3 x4 x5 x6 x7 x8 x9 x10 x11 x12 x13 x14 (idx_main_v10 j), gates_eq x0 x1 x3 x4 x5 x6 x7 x8 x9 x10 x11 x12 x13 x14 (idx_main_v9 j),
    gates_eq x0 x1 x3 x4 x5 x6 x7 x8 x9 x10 x11 x12 x13 x14 (idx_main_v11 j), gband0, gband1, gband2, gband3, cell_spelt, hid_spelt]
  rfl

end Cert.ReferenceIdeal.RefG

end
-- ==== Proof.lean ====
/-
  An LSTM cell: from `x`, `h`, `c` (4096 × 2048 each), eight 2048 × 2048 weight matrices and four bias rows, the gate
  pre-activations `g = x · Wx + h · Wh + b` (4096 × 8192, the weights and biases laid side by side in the order input,
  forget, candidate, output), then `c' = σ(g_f) · c + σ(g_i) · tanh(g_c)` and `h' = σ(g_o) · tanh(c')`.

  The kernel forms `g` tile by tile on a 16 × 8 grid as ONE product `[x | h] · [Wx ; Wh]`, 512 columns of the left factor
  at a time, accumulated in a scratch tile that starts from the bias; at the eighth step it applies the gate arithmetic
  and writes the two result tiles back. The reference forms `x · Wx` and `h · Wh` whole, adds them and then the bias.

  On the extended reals the two are equal entry by entry: the kernel's entry is the bias plus eight sums of 512 products,
  the reference's two sums of 2048 products plus the bias, and addition is commutative and associative (no finiteness
  is used); a change of float format is the identity; the kernel's logistic operation is the reference's
  `1 / (1 + e^(-g))`; and the remaining arithmetic is the same operations in the same order.

  The frames: the reference's is its run with the results dropped; each kernel program's is the frame run of its one
  region (three control cases by the reduction coordinate, the accumulator carried from point to point), after which
  every argument array is as launched — none is written by the host lines, and the one the region stages is only read.
-/
import proofs.«117353_j21088289423624_1_alg».proof.Defs
import proofs.«117353_j21088289423624_1_alg».proof.Proof.Kernel.Frame
import proofs.«117353_j21088289423624_1_alg».proof.Proof.KernelIdeal.Result
import proofs.«117353_j21088289423624_1_alg».proof.Proof.RefG
import proofs.«117353_j21088289423624_1_alg».proof.Proof.Gen.Kernel
import proofs.«117353_j21088289423624_1_alg».proof.Proof.Gen.KernelIdeal
import proofs.«117353_j21088289423624_1_alg».proof.Proof.Gen.ReferenceIdeal
import proofs.«117353_j21088289423624_1_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_r : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the new hidden state and the new cell state of arguments that agree. -/
theorem algebraic : Cert.algebraic_KernelIdeal_ReferenceIdeal := by
  intro m ρ m' ρ' _ hagree
  refine ⟨fun c => Cert.KernelIdeal.Fr.resHid m c, fun c => Cert.KernelIdeal.Fr.resCell m c,
    Cert.KernelIdeal.Fr.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v36_eq, Cert.ReferenceIdeal.RefG.hid_eq, a0, a1, a2, a3, a4, a5, a6, a7, a8, a9, a10, a11, a12, a13, a14]
    rfl
  · obtain ⟨a0, a1, a2, a3, a4, a5, a6, a7, a8, a9, a10, a11, a12, a13, a14⟩ := hagree c
    rw [Cert.ReferenceIdeal.Read.val_main_v34_eq, Cert.ReferenceIdeal.RefG.cell_eq, a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
